-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v52_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x50 : Shape := ⟨2, ![4096, 50]⟩
abbrev S4096x50x4x64 : Shape := ⟨4, ![4096, 50, 4, 64]⟩
abbrev S4096x4x50 : Shape := ⟨3, ![4096, 4, 50]⟩
abbrev S_ : Shape := ⟨0, ![]⟩

class Facts : Prop where
  bcast_S_S4096x50x4x64 : S_.BroadcastsInDim S4096x50x4x64 (![] : Fin 0 → Fin S4096x50x4x64.rank)
  reducesTo_S4096x50x4x64_S_d0_1_2_3 : S4096x50x4x64.ReducesTo [0, 1, 2, 3] S_
  h_S_ : 0 < S_.numel
  bcast_S_S4096x4x50 : S_.BroadcastsInDim S4096x4x50 (![] : Fin 0 → Fin S4096x4x50.rank)
  reducesTo_S4096x4x50_S_d0_1_2 : S4096x4x50.ReducesTo [0, 1, 2] S_

variable [Facts]

def fn {F : FTy → Type} [FloatOps F] (main_arg0 : IVec S4096x50 32) (main_arg1 : FVec F S4096x50x4x64 .f32) (main_arg2 : FVec F S4096x4x50 .f32) : IVec S_ 1 :=
  let main_v0 : FVec F S4096x50x4x64 .f32 := Host.absf main_arg1
  let main_cst : FVec F S_ .f32 := constant S_ .f32 0x7F800000#32
  let main_v1 : FVec F S4096x50x4x64 .f32 := broadcastInDim S4096x50x4x64 ![] bcast_S_S4096x50x4x64 main_cst
  let main_v2 : IVec S4096x50x4x64 1 := cmpf .olt main_v0 main_v1
  let main_c : IVec S_ 1 := constantI S_ 1 1#1
  let main_v3 : IVec S_ 1 := (fun x v => Host.reduce IntOp.andi x v reducesTo_S4096x50x4x64_S_d0_1_2_3 h_S_) main_v2 main_c
  let main_v4 : FVec F S4096x4x50 .f32 := Host.absf main_arg2
  let main_cst_0 : FVec F S_ .f32 := constant S_ .f32 0x7F800000#32
  let main_v5 : FVec F S4096x4x50 .f32 := broadcastInDim S4096x4x50 ![] bcast_S_S4096x4x50 main_cst_0
  let main_v6 : IVec S4096x4x50 1 := cmpf .olt main_v4 main_v5
  let main_c_1 : IVec S_ 1 := constantI S_ 1 1#1
  let main_v7 : IVec S_ 1 := (fun x v => Host.reduce IntOp.andi x v reducesTo_S4096x4x50_S_d0_1_2 h_S_) main_v6 main_c_1
  let main_v8 : IVec S_ 1 := andi main_v3 main_v7
  main_v8
-- ==== Kernel.lean ====
abbrev S4096x50 : Shape := ⟨2, ![4096, 50]⟩
abbrev S4096x50x4x64 : Shape := ⟨4, ![4096, 50, 4, 64]⟩
abbrev S4096x4x50 : Shape := ⟨3, ![4096, 4, 50]⟩
abbrev S4096x50x256 : Shape := ⟨3, ![4096, 50, 256]⟩
abbrev S4096x1x50 : Shape := ⟨3, ![4096, 1, 50]⟩
abbrev S_ : Shape := ⟨0, ![]⟩
abbrev S4x50 : Shape := ⟨2, ![4, 50]⟩
abbrev S1x4x50 : Shape := ⟨3, ![1, 4, 50]⟩
abbrev S4096x4x64 : Shape := ⟨3, ![4096, 4, 64]⟩
abbrev S128x50x256 : Shape := ⟨3, ![128, 50, 256]⟩
abbrev S128x4x50 : Shape := ⟨3, ![128, 4, 50]⟩
abbrev S128x4x64 : Shape := ⟨3, ![128, 4, 64]⟩
abbrev S128x50x64 : Shape := ⟨3, ![128, 50, 64]⟩
abbrev S128x1x50 : Shape := ⟨3, ![128, 1, 50]⟩
abbrev S128x50 : Shape := ⟨2, ![128, 50]⟩
abbrev S128x50x1 : Shape := ⟨3, ![128, 50, 1]⟩
abbrev S128x64 : Shape := ⟨2, ![128, 64]⟩
abbrev S128 : Shape := ⟨1, ![128]⟩
abbrev S128x1 : Shape := ⟨2, ![128, 1]⟩
abbrev S128x1x64 : Shape := ⟨3, ![128, 1, 64]⟩

abbrev nBuf : Space → Nat
  | .hbm => 74
  | .vmem => 24
  | .smem => 0
  | _ => 0

abbrev bufTy : (tb : Table) → Fin (tcTables nBuf tb) → BufTy
  | .hbm, ⟨0, _⟩ => ⟨S4096x50, .i32⟩
  | .hbm, ⟨1, _⟩ => ⟨S4096x50x4x64, .f32⟩
  | .hbm, ⟨2, _⟩ => ⟨S4096x4x50, .f32⟩
  | .hbm, ⟨3, _⟩ => ⟨S4096x50x256, .f32⟩
  | .hbm, ⟨4, _⟩ => ⟨S4096x1x50, .i32⟩
  | .hbm, ⟨5, _⟩ => ⟨S4096x4x50, .i32⟩
  | .hbm, ⟨6, _⟩ => ⟨S_, .f32⟩
  | .hbm, ⟨7, _⟩ => ⟨S4x50, .f32⟩
  | .hbm, ⟨8, _⟩ => ⟨S_, .f32⟩
  | .hbm, ⟨9, _⟩ => ⟨S4x50, .f32⟩
  | .hbm, ⟨10, _⟩ => ⟨S4x50, .f32⟩
  | .hbm, ⟨11, _⟩ => ⟨S1x4x50, .f32⟩
  | .hbm, ⟨12, _⟩ => ⟨S4096x4x50, .f32⟩
  | .hbm, ⟨13, _⟩ => ⟨S4096x4x50, .f32⟩
  | .hbm, ⟨14, _⟩ => ⟨S4096x4x50, .f32⟩
  | .hbm, ⟨15, _⟩ => ⟨S_, .f32⟩
  | .hbm, ⟨16, _⟩ => ⟨S4x50, .f32⟩
  | .hbm, ⟨17, _⟩ => ⟨S1x4x50, .f32⟩
  | .hbm, ⟨18, _⟩ => ⟨S4096x4x50, .f32⟩
  | .hbm, ⟨19, _⟩ => ⟨S4096x4x50, .f32⟩
  | .hbm, ⟨20, _⟩ => ⟨S_, .i32⟩
  | .hbm, ⟨21, _⟩ => ⟨S4096x4x50, .i32⟩
  | .hbm, ⟨22, _⟩ => ⟨S4096x4x50, .i1⟩
  | .hbm, ⟨23, _⟩ => ⟨S_, .f32⟩
  | .hbm, ⟨24, _⟩ => ⟨S4096x4x50, .f32⟩
  | .hbm, ⟨25, _⟩ => ⟨S4096x4x50, .f32⟩
  | .hbm, ⟨26, _⟩ => ⟨S4096x4x64, .f32⟩
  | .hbm, ⟨27, _⟩ => ⟨S4096x4x50, .f32⟩
  | .hbm, ⟨28, _⟩ => ⟨S4096x4x50, .f32⟩
  | .hbm, ⟨29, _⟩ => ⟨S_, .f32⟩
  | .hbm, ⟨30, _⟩ => ⟨S4x50, .f32⟩
  | .hbm, ⟨31, _⟩ => ⟨S_, .f32⟩
  | .hbm, ⟨32, _⟩ => ⟨S4x50, .f32⟩
  | .hbm, ⟨33, _⟩ => ⟨S4x50, .f32⟩
  | .hbm, ⟨34, _⟩ => ⟨S1x4x50, .f32⟩
  | .hbm, ⟨35, _⟩ => ⟨S4096x4x50, .f32⟩
  | .hbm, ⟨36, _⟩ => ⟨S4096x4x50, .f32⟩
  | .hbm, ⟨37, _⟩ => ⟨S4096x4x50, .f32⟩
  | .hbm, ⟨38, _⟩ => ⟨S_, .f32⟩
  | .hbm, ⟨39, _⟩ => ⟨S4x50, .f32⟩
  | .hbm, ⟨40, _⟩ => ⟨S1x4x50, .f32⟩
  | .hbm, ⟨41, _⟩ => ⟨S4096x4x50, .f32⟩
  | .hbm, ⟨42, _⟩ => ⟨S4096x4x50, .f32⟩
  | .hbm, ⟨43, _⟩ => ⟨S_, .i32⟩
  | .hbm, ⟨44, _⟩ => ⟨S4096x4x50, .i32⟩
  | .hbm, ⟨45, _⟩ => ⟨S4096x4x50, .i1⟩
  | .hbm, ⟨46, _⟩ => ⟨S_, .f32⟩
  | .hbm, ⟨47, _⟩ => ⟨S4096x4x50, .f32⟩
  | .hbm, ⟨48, _⟩ => ⟨S4096x4x50, .f32⟩
  | .hbm, ⟨49, _⟩ => ⟨S4096x4x64, .f32⟩
  | .hbm, ⟨50, _⟩ => ⟨S4096x4x50, .f32⟩
  | .hbm, ⟨51, _⟩ => ⟨S4096x4x50, .f32⟩
  | .hbm, ⟨52, _⟩ => ⟨S_, .f32⟩
  | .hbm, ⟨53, _⟩ => ⟨S4x50, .f32⟩
  | .hbm, ⟨54, _⟩ => ⟨S_, .f32⟩
  | .hbm, ⟨55, _⟩ => ⟨S4x50, .f32⟩
  | .hbm, ⟨56, _⟩ => ⟨S4x50, .f32⟩
  | .hbm, ⟨57, _⟩ => ⟨S1x4x50, .f32⟩
  | .hbm, ⟨58, _⟩ => ⟨S4096x4x50, .f32⟩
  | .hbm, ⟨59, _⟩ => ⟨S4096x4x50, .f32⟩
  | .hbm, ⟨60, _⟩ => ⟨S4096x4x50, .f32⟩
  | .hbm, ⟨61, _⟩ => ⟨S_, .f32⟩
  | .hbm, ⟨62, _⟩ => ⟨S4x50, .f32⟩
  | .hbm, ⟨63, _⟩ => ⟨S1x4x50, .f32⟩
  | .hbm, ⟨64, _⟩ => ⟨S4096x4x50, .f32⟩
  | .hbm, ⟨65, _⟩ => ⟨S4096x4x50, .f32⟩
  | .hbm, ⟨66, _⟩ => ⟨S_, .i32⟩
  | .hbm, ⟨67, _⟩ => ⟨S4096x4x50, .i32⟩
  | .hbm, ⟨68, _⟩ => ⟨S4096x4x50, .i1⟩
  | .hbm, ⟨69, _⟩ => ⟨S_, .f32⟩
  | .hbm, ⟨70, _⟩ => ⟨S4096x4x50, .f32⟩
  | .hbm, ⟨71, _⟩ => ⟨S4096x4x50, .f32⟩
  | .hbm, ⟨72, _⟩ => ⟨S4096x4x64, .f32⟩
  | .hbm, ⟨73, _⟩ => ⟨S4096x4x50, .f32⟩
  | .local _ .vmem, ⟨0, _⟩ => ⟨S128x50x256, .f32⟩
  | .local _ .vmem, ⟨1, _⟩ => ⟨S128x50x256, .f32⟩
  | .local _ .vmem, ⟨2, _⟩ => ⟨S128x4x50, .f32⟩
  | .local _ .vmem, ⟨3, _⟩ => ⟨S128x4x50, .f32⟩
  | .local _ .vmem, ⟨4, _⟩ => ⟨S128x4x64, .f32⟩
  | .local _ .vmem, ⟨5, _⟩ => ⟨S128x4x64, .f32⟩
  | .local _ .vmem, ⟨6, _⟩ => ⟨S128x4x50, .f32⟩
  | .local _ .vmem, ⟨7, _⟩ => ⟨S128x4x50, .f32⟩
  | .local _ .vmem, ⟨8, _⟩ => ⟨S128x50x256, .f32⟩
  | .local _ .vmem, ⟨9, _⟩ => ⟨S128x50x256, .f32⟩
  | .local _ .vmem, ⟨10, _⟩ => ⟨S128x4x50, .f32⟩
  | .local _ .vmem, ⟨11, _⟩ => ⟨S128x4x50, .f32⟩
  | .local _ .vmem, ⟨12, _⟩ => ⟨S128x4x64, .f32⟩
  | .local _ .vmem, ⟨13, _⟩ => ⟨S128x4x64, .f32⟩
  | .local _ .vmem, ⟨14, _⟩ => ⟨S128x4x50, .f32⟩
  | .local _ .vmem, ⟨15, _⟩ => ⟨S128x4x50, .f32⟩
  | .local _ .vmem, ⟨16, _⟩ => ⟨S128x50x256, .f32⟩
  | .local _ .vmem, ⟨17, _⟩ => ⟨S128x50x256, .f32⟩
  | .local _ .vmem, ⟨18, _⟩ => ⟨S128x4x50, .f32⟩
  | .local _ .vmem, ⟨19, _⟩ => ⟨S128x4x50, .f32⟩
  | .local _ .vmem, ⟨20, _⟩ => ⟨S128x4x64, .f32⟩
  | .local _ .vmem, ⟨21, _⟩ => ⟨S128x4x64, .f32⟩
  | .local _ .vmem, ⟨22, _⟩ => ⟨S128x4x50, .f32⟩
  | .local _ .vmem, ⟨23, _⟩ => ⟨S128x4x50, .f32⟩
  | _, _ => ⟨S4096x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35_0 : Ref sig .tc := ⟨.hbm, 49, rfl⟩
abbrev main_v35_1 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_11 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_v51 : Ref sig .tc := ⟨.hbm, 71, rfl⟩
abbrev main_v52_0 : Ref sig .tc := ⟨.hbm, 72, rfl⟩
abbrev main_v52_1 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x50x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4x50 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x50x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x4x50 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x4x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x4x50 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S128x50x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x4x50 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x4x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x4x50 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4096x50x4x64_S4096x50x256 : S4096x50x4x64.ShapeCasts S4096x50x256
  bcast_S4096x50_S4096x1x50_0_2 : S4096x50.BroadcastsInDim S4096x1x50 (![0, 2] : Fin 2 → Fin S4096x1x50.rank)
  bcast_S4096x1x50_S4096x4x50_0_1_2 : S4096x1x50.BroadcastsInDim S4096x4x50 (![0, 1, 2] : Fin 3 → Fin S4096x4x50.rank)
  reducesTo_S4096x4x50_S4x50_d0 : S4096x4x50.ReducesTo [0] S4x50
  h_S_ : 0 < S_.numel
  bcast_S_S4x50 : S_.BroadcastsInDim S4x50 (![] : Fin 0 → Fin S4x50.rank)
  bcast_S4x50_S1x4x50_1_2 : S4x50.BroadcastsInDim S1x4x50 (![1, 2] : Fin 2 → Fin S1x4x50.rank)
  bcast_S1x4x50_S4096x4x50_0_1_2 : S1x4x50.BroadcastsInDim S4096x4x50 (![0, 1, 2] : Fin 3 → Fin S4096x4x50.rank)
  bcast_S_S4096x4x50 : S_.BroadcastsInDim S4096x4x50 (![] : Fin 0 → Fin S4096x4x50.rank)
  inb_S128x50x256_S128x50x256_0_0_0 : ∀ a, (![0, 0, 0] : Fin 3 → Nat) a + S128x50x256.size a ≤ S128x50x256.size a
  h_S128x50x256 : 0 < S128x50x256.numel
  shapeCasts_S128x50x256_S128x50x256 : S128x50x256.ShapeCasts S128x50x256
  inb_S128x4x50_S128x4x50_0_0_0 : ∀ a, (![0, 0, 0] : Fin 3 → Nat) a + S128x4x50.size a ≤ S128x4x50.size a
  h_S128x4x50 : 0 < S128x4x50.numel
  shapeCasts_S128x4x50_S128x4x50 : S128x4x50.ShapeCasts S128x4x50
  slices_S128x50x256_o0_0_0_S128x50x64 : S128x50x256.Slices ![0, 0, 0] S128x50x64
  slices_S128x4x50_o0_0_0_S128x1x50 : S128x4x50.Slices ![0, 0, 0] S128x1x50
  shapeCasts_S128x1x50_S128x50 : S128x1x50.ShapeCasts S128x50
  shapeCasts_S128x50_S128x50x1 : S128x50.ShapeCasts S128x50x1
  broadcasts_S128x50x1_S128x50x64 : S128x50x1.Broadcasts S128x50x64
  reduces_S128x50x64_S128x64 : S128x50x64.Reduces [1] S128x64
  reduces_S128x64_S128 : S128x64.Reduces [1] S128
  shapeCasts_S128_S128x1 : S128.ShapeCasts S128x1
  broadcasts_S128x1_S128x64 : S128x1.Broadcasts S128x64
  shapeCasts_S128x64_S128x1x64 : S128x64.ShapeCasts S128x1x64
  broadcasts_S128x1x64_S128x50x64 : S128x1x64.Broadcasts S128x50x64
  reduces_S128x50x64_S128x50 : S128x50x64.Reduces [2] S128x50
  inb_S128x4x64_S128x1x64_0_0_0 : ∀ a, (![0, 0, 0] : Fin 3 → Nat) a + S128x1x64.size a ≤ S128x4x64.size a
  h_S128x1x64 : 0 < S128x1x64.numel
  shapeCasts_S128x1x64_S128x64 : S128x1x64.ShapeCasts S128x64
  inb_S128x4x50_S128x1x50_0_0_0 : ∀ a, (![0, 0, 0] : Fin 3 → Nat) a + S128x1x50.size a ≤ S128x4x50.size a
  h_S128x1x50 : 0 < S128x1x50.numel
  shapeCasts_S128x50_S128x1x50 : S128x50.ShapeCasts S128x1x50
  slices_S128x50x256_o0_0_64_S128x50x64 : S128x50x256.Slices ![0, 0, 64] S128x50x64
  slices_S128x4x50_o0_1_0_S128x1x50 : S128x4x50.Slices ![0, 1, 0] S128x1x50
  inb_S128x4x64_S128x1x64_0_1_0 : ∀ a, (![0, 1, 0] : Fin 3 → Nat) a + S128x1x64.size a ≤ S128x4x64.size a
  inb_S128x4x50_S128x1x50_0_1_0 : ∀ a, (![0, 1, 0] : Fin 3 → Nat) a + S128x1x50.size a ≤ S128x4x50.size a
  slices_S128x50x256_o0_0_128_S128x50x64 : S128x50x256.Slices ![0, 0, 128] S128x50x64
  slices_S128x4x50_o0_2_0_S128x1x50 : S128x4x50.Slices ![0, 2, 0] S128x1x50
  inb_S128x4x64_S128x1x64_0_2_0 : ∀ a, (![0, 2, 0] : Fin 3 → Nat) a + S128x1x64.size a ≤ S128x4x64.size a
  inb_S128x4x50_S128x1x50_0_2_0 : ∀ a, (![0, 2, 0] : Fin 3 → Nat) a + S128x1x50.size a ≤ S128x4x50.size a
  slices_S128x50x256_o0_0_192_S128x50x64 : S128x50x256.Slices ![0, 0, 192] S128x50x64
  slices_S128x4x50_o0_3_0_S128x1x50 : S128x4x50.Slices ![0, 3, 0] S128x1x50
  inb_S128x4x64_S128x1x64_0_3_0 : ∀ a, (![0, 3, 0] : Fin 3 → Nat) a + S128x1x64.size a ≤ S128x4x64.size a
  inb_S128x4x50_S128x1x50_0_3_0 : ∀ a, (![0, 3, 0] : Fin 3 → Nat) a + S128x1x50.size a ≤ S128x4x50.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x50x256.size a ≤ S4096x50x256.size a
  hwx0_0 : ∀ i : grid0.Coords, EltTy.bits .f32 = 32 ∨ (Rect.block (s := S4096x50x256) S128x50x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4x50.size a ≤ S4096x4x50.size a
  hwx0_1 : ∀ i : grid0.Coords, EltTy.bits .f32 = 32 ∨ (Rect.block (s := S4096x4x50) S128x4x50.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4x64.size a ≤ S4096x4x64.size a
  hwx0_2 : ∀ i : grid0.Coords, EltTy.bits .f32 = 32 ∨ (Rect.block (s := S4096x4x64) S128x4x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4x50.size a ≤ S4096x4x50.size a
  hwx0_3 : ∀ i : grid0.Coords, EltTy.bits .f32 = 32 ∨ (Rect.block (s := S4096x4x50) S128x4x50.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x50x256.size a ≤ S4096x50x256.size a
  hwx1_0 : ∀ i : grid1.Coords, EltTy.bits .f32 = 32 ∨ (Rect.block (s := S4096x50x256) S128x50x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x4x50.size a ≤ S4096x4x50.size a
  hwx1_1 : ∀ i : grid1.Coords, EltTy.bits .f32 = 32 ∨ (Rect.block (s := S4096x4x50) S128x4x50.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x4x64.size a ≤ S4096x4x64.size a
  hwx1_2 : ∀ i : grid1.Coords, EltTy.bits .f32 = 32 ∨ (Rect.block (s := S4096x4x64) S128x4x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4x50.size a ≤ S4096x4x50.size a
  hwx1_3 : ∀ i : grid1.Coords, EltTy.bits .f32 = 32 ∨ (Rect.block (s := S4096x4x50) S128x4x50.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x50x256.size a ≤ S4096x50x256.size a
  hwx2_0 : ∀ i : grid2.Coords, EltTy.bits .f32 = 32 ∨ (Rect.block (s := S4096x50x256) S128x50x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x4x50.size a ≤ S4096x4x50.size a
  hwx2_1 : ∀ i : grid2.Coords, EltTy.bits .f32 = 32 ∨ (Rect.block (s := S4096x4x50) S128x4x50.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x4x64.size a ≤ S4096x4x64.size a
  hwx2_2 : ∀ i : grid2.Coords, EltTy.bits .f32 = 32 ∨ (Rect.block (s := S4096x4x64) S128x4x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x4x50.size a ≤ S4096x4x50.size a
  hwx2_3 : ∀ i : grid2.Coords, EltTy.bits .f32 = 32 ∨ (Rect.block (s := S4096x4x50) S128x4x50.size (cc2_transform_3 i) (hinb2_3 i)).WholeWords (EltTy.packing .f32)

variable [Facts₀]

abbrev win0_0 : Pipeline.Window sig grid0 :=
  Pipeline.Window.ofSpec (Memref.whole main_v0) S128x50x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S128x4x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18_0) S128x4x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18_1) S128x4x50.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S128x50x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S128x4x50.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35_0) S128x4x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35_1) S128x4x50.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S128x50x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S128x4x50.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52_0) S128x4x64.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v52_1) S128x4x50.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x50 : Shape := ⟨2, ![4096, 50]⟩
abbrev S4096x50x4x64 : Shape := ⟨4, ![4096, 50, 4, 64]⟩
abbrev S4096x4x50 : Shape := ⟨3, ![4096, 4, 50]⟩
abbrev S4096x4x50x64 : Shape := ⟨4, ![4096, 4, 50, 64]⟩
abbrev S4096x1x50 : Shape := ⟨3, ![4096, 1, 50]⟩
abbrev S_ : Shape := ⟨0, ![]⟩
abbrev S4x50 : Shape := ⟨2, ![4, 50]⟩
abbrev S1x4x50 : Shape := ⟨3, ![1, 4, 50]⟩
abbrev S4096x4x1x50 : Shape := ⟨4, ![4096, 4, 1, 50]⟩
abbrev S4096x4x1x64 : Shape := ⟨4, ![4096, 4, 1, 64]⟩
abbrev S4096x4x1 : Shape := ⟨3, ![4096, 4, 1]⟩
abbrev S4096x4x1x1 : Shape := ⟨4, ![4096, 4, 1, 1]⟩
abbrev S4096x4x64x1 : Shape := ⟨4, ![4096, 4, 64, 1]⟩
abbrev S4096x4x50x1 : Shape := ⟨4, ![4096, 4, 50, 1]⟩
abbrev S4096x4x64 : Shape := ⟨3, ![4096, 4, 64]⟩

abbrev nBuf : Space → Nat
  | .hbm => 126
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S4096x50x4x64, .f32⟩
  | .hbm, ⟨2, _⟩ => ⟨S4096x4x50, .f32⟩
  | .hbm, ⟨3, _⟩ => ⟨S4096x4x50x64, .f32⟩
  | .hbm, ⟨4, _⟩ => ⟨S4096x1x50, .i32⟩
  | .hbm, ⟨5, _⟩ => ⟨S4096x4x50, .i32⟩
  | .hbm, ⟨6, _⟩ => ⟨S_, .f32⟩
  | .hbm, ⟨7, _⟩ => ⟨S4x50, .f32⟩
  | .hbm, ⟨8, _⟩ => ⟨S_, .f32⟩
  | .hbm, ⟨9, _⟩ => ⟨S4x50, .f32⟩
  | .hbm, ⟨10, _⟩ => ⟨S4x50, .f32⟩
  | .hbm, ⟨11, _⟩ => ⟨S1x4x50, .f32⟩
  | .hbm, ⟨12, _⟩ => ⟨S4096x4x50, .f32⟩
  | .hbm, ⟨13, _⟩ => ⟨S4096x4x50, .f32⟩
  | .hbm, ⟨14, _⟩ => ⟨S4096x4x50, .f32⟩
  | .hbm, ⟨15, _⟩ => ⟨S_, .f32⟩
  | .hbm, ⟨16, _⟩ => ⟨S4x50, .f32⟩
  | .hbm, ⟨17, _⟩ => ⟨S1x4x50, .f32⟩
  | .hbm, ⟨18, _⟩ => ⟨S4096x4x50, .f32⟩
  | .hbm, ⟨19, _⟩ => ⟨S4096x4x50, .f32⟩
  | .hbm, ⟨20, _⟩ => ⟨S_, .i32⟩
  | .hbm, ⟨21, _⟩ => ⟨S4096x4x50, .i32⟩
  | .hbm, ⟨22, _⟩ => ⟨S4096x4x50, .i1⟩
  | .hbm, ⟨23, _⟩ => ⟨S_, .f32⟩
  | .hbm, ⟨24, _⟩ => ⟨S4096x4x50, .f32⟩
  | .hbm, ⟨25, _⟩ => ⟨S4096x4x50, .f32⟩
  | .hbm, ⟨26, _⟩ => ⟨S4096x4x1x50, .f32⟩
  | .hbm, ⟨27, _⟩ => ⟨S4096x4x1x64, .f32⟩
  | .hbm, ⟨28, _⟩ => ⟨S4096x4x1x64, .f32⟩
  | .hbm, ⟨29, _⟩ => ⟨S_, .f32⟩
  | .hbm, ⟨30, _⟩ => ⟨S4096x4x1, .f32⟩
  | .hbm, ⟨31, _⟩ => ⟨S4096x4x1x1, .f32⟩
  | .hbm, ⟨32, _⟩ => ⟨S_, .f32⟩
  | .hbm, ⟨33, _⟩ => ⟨S4096x4x1x1, .f32⟩
  | .hbm, ⟨34, _⟩ => ⟨S4096x4x1x1, .f32⟩
  | .hbm, ⟨35, _⟩ => ⟨S4096x4x1x1, .f32⟩
  | .hbm, ⟨36, _⟩ => ⟨S_, .f32⟩
  | .hbm, ⟨37, _⟩ => ⟨S4096x4x1x1, .f32⟩
  | .hbm, ⟨38, _⟩ => ⟨S4096x4x1x1, .f32⟩
  | .hbm, ⟨39, _⟩ => ⟨S4096x4x1x1, .f32⟩
  | .hbm, ⟨40, _⟩ => ⟨S4096x4x1x1, .f32⟩
  | .hbm, ⟨41, _⟩ => ⟨S4096x4x1x64, .f32⟩
  | .hbm, ⟨42, _⟩ => ⟨S4096x4x1x64, .f32⟩
  | .hbm, ⟨43, _⟩ => ⟨S4096x4x64x1, .f32⟩
  | .hbm, ⟨44, _⟩ => ⟨S4096x4x50x1, .f32⟩
  | .hbm, ⟨45, _⟩ => ⟨S4096x4x50, .f32⟩
  | .hbm, ⟨46, _⟩ => ⟨S4096x4x50, .f32⟩
  | .hbm, ⟨47, _⟩ => ⟨S_, .f32⟩
  | .hbm, ⟨48, _⟩ => ⟨S4x50, .f32⟩
  | .hbm, ⟨49, _⟩ => ⟨S_, .f32⟩
  | .hbm, ⟨50, _⟩ => ⟨S4x50, .f32⟩
  | .hbm, ⟨51, _⟩ => ⟨S4x50, .f32⟩
  | .hbm, ⟨52, _⟩ => ⟨S1x4x50, .f32⟩
  | .hbm, ⟨53, _⟩ => ⟨S4096x4x50, .f32⟩
  | .hbm, ⟨54, _⟩ => ⟨S4096x4x50, .f32⟩
  | .hbm, ⟨55, _⟩ => ⟨S4096x4x50, .f32⟩
  | .hbm, ⟨56, _⟩ => ⟨S_, .f32⟩
  | .hbm, ⟨57, _⟩ => ⟨S4x50, .f32⟩
  | .hbm, ⟨58, _⟩ => ⟨S1x4x50, .f32⟩
  | .hbm, ⟨59, _⟩ => ⟨S4096x4x50, .f32⟩
  | .hbm, ⟨60, _⟩ => ⟨S4096x4x50, .f32⟩
  | .hbm, ⟨61, _⟩ => ⟨S_, .i32⟩
  | .hbm, ⟨62, _⟩ => ⟨S4096x4x50, .i32⟩
  | .hbm, ⟨63, _⟩ => ⟨S4096x4x50, .i1⟩
  | .hbm, ⟨64, _⟩ => ⟨S_, .f32⟩
  | .hbm, ⟨65, _⟩ => ⟨S4096x4x50, .f32⟩
  | .hbm, ⟨66, _⟩ => ⟨S4096x4x50, .f32⟩
  | .hbm, ⟨67, _⟩ => ⟨S4096x4x1x50, .f32⟩
  | .hbm, ⟨68, _⟩ => ⟨S4096x4x1x64, .f32⟩
  | .hbm, ⟨69, _⟩ => ⟨S4096x4x1x64, .f32⟩
  | .hbm, ⟨70, _⟩ => ⟨S_, .f32⟩
  | .hbm, ⟨71, _⟩ => ⟨S4096x4x1, .f32⟩
  | .hbm, ⟨72, _⟩ => ⟨S4096x4x1x1, .f32⟩
  | .hbm, ⟨73, _⟩ => ⟨S_, .f32⟩
  | .hbm, ⟨74, _⟩ => ⟨S4096x4x1x1, .f32⟩
  | .hbm, ⟨75, _⟩ => ⟨S4096x4x1x1, .f32⟩
  | .hbm, ⟨76, _⟩ => ⟨S4096x4x1x1, .f32⟩
  | .hbm, ⟨77, _⟩ => ⟨S_, .f32⟩
  | .hbm, ⟨78, _⟩ => ⟨S4096x4x1x1, .f32⟩
  | .hbm, ⟨79, _⟩ => ⟨S4096x4x1x1, .f32⟩
  | .hbm, ⟨80, _⟩ => ⟨S4096x4x1x1, .f32⟩
  | .hbm, ⟨81, _⟩ => ⟨S4096x4x1x1, .f32⟩
  | .hbm, ⟨82, _⟩ => ⟨S4096x4x1x64, .f32⟩
  | .hbm, ⟨83, _⟩ => ⟨S4096x4x1x64, .f32⟩
  | .hbm, ⟨84, _⟩ => ⟨S4096x4x64x1, .f32⟩
  | .hbm, ⟨85, _⟩ => ⟨S4096x4x50x1, .f32⟩
  | .hbm, ⟨86, _⟩ => ⟨S4096x4x50, .f32⟩
  | .hbm, ⟨87, _⟩ => ⟨S4096x4x50, .f32⟩
  | .hbm, ⟨88, _⟩ => ⟨S_, .f32⟩
  | .hbm, ⟨89, _⟩ => ⟨S4x50, .f32⟩
  | .hbm, ⟨90, _⟩ => ⟨S_, .f32⟩
  | .hbm, ⟨91, _⟩ => ⟨S4x50, .f32⟩
  | .hbm, ⟨92, _⟩ => ⟨S4x50, .f32⟩
  | .hbm, ⟨93, _⟩ => ⟨S1x4x50, .f32⟩
  | .hbm, ⟨94, _⟩ => ⟨S4096x4x50, .f32⟩
  | .hbm, ⟨95, _⟩ => ⟨S4096x4x50, .f32⟩
  | .hbm, ⟨96, _⟩ => ⟨S4096x4x50, .f32⟩
  | .hbm, ⟨97, _⟩ => ⟨S_, .f32⟩
  | .hbm, ⟨98, _⟩ => ⟨S4x50, .f32⟩
  | .hbm, ⟨99, _⟩ => ⟨S1x4x50, .f32⟩
  | .hbm, ⟨100, _⟩ => ⟨S4096x4x50, .f32⟩
  | .hbm, ⟨101, _⟩ => ⟨S4096x4x50, .f32⟩
  | .hbm, ⟨102, _⟩ => ⟨S_, .i32⟩
  | .hbm, ⟨103, _⟩ => ⟨S4096x4x50, .i32⟩
  | .hbm, ⟨104, _⟩ => ⟨S4096x4x50, .i1⟩
  | .hbm, ⟨105, _⟩ => ⟨S_, .f32⟩
  | .hbm, ⟨106, _⟩ => ⟨S4096x4x50, .f32⟩
  | .hbm, ⟨107, _⟩ => ⟨S4096x4x50, .f32⟩
  | .hbm, ⟨108, _⟩ => ⟨S4096x4x1x50, .f32⟩
  | .hbm, ⟨109, _⟩ => ⟨S4096x4x1x64, .f32⟩
  | .hbm, ⟨110, _⟩ => ⟨S4096x4x1x64, .f32⟩
  | .hbm, ⟨111, _⟩ => ⟨S_, .f32⟩
  | .hbm, ⟨112, _⟩ => ⟨S4096x4x1, .f32⟩
  | .hbm, ⟨113, _⟩ => ⟨S4096x4x1x1, .f32⟩
  | .hbm, ⟨114, _⟩ => ⟨S_, .f32⟩
  | .hbm, ⟨115, _⟩ => ⟨S4096x4x1x1, .f32⟩
  | .hbm, ⟨116, _⟩ => ⟨S4096x4x1x1, .f32⟩
  | .hbm, ⟨117, _⟩ => ⟨S4096x4x1x1, .f32⟩
  | .hbm, ⟨118, _⟩ => ⟨S_, .f32⟩
  | .hbm, ⟨119, _⟩ => ⟨S4096x4x1x1, .f32⟩
  | .hbm, ⟨120, _⟩ => ⟨S4096x4x1x1, .f32⟩
  | .hbm, ⟨121, _⟩ => ⟨S4096x4x1x1, .f32⟩
  | .hbm, ⟨122, _⟩ => ⟨S4096x4x1x1, .f32⟩
  | .hbm, ⟨123, _⟩ => ⟨S4096x4x1x64, .f32⟩
  | .hbm, ⟨124, _⟩ => ⟨S4096x4x1x64, .f32⟩
  | .hbm, ⟨125, _⟩ => ⟨S4096x4x64, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_9 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_cst_12 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_13 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_14 : Ref sig .tc := ⟨.hbm, 88, rfl⟩
abbrev main_v69 : Ref sig .tc := ⟨.hbm, 89, rfl⟩
abbrev main_cst_15 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_16 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_c_17 : Ref sig .tc := ⟨.hbm, 102, rfl⟩
abbrev main_v80 : Ref sig .tc := ⟨.hbm, 103, rfl⟩
abbrev main_v81 : Ref sig .tc := ⟨.hbm, 104, rfl⟩
abbrev main_cst_18 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_19 : Ref sig .tc := ⟨.hbm, 111, rfl⟩
abbrev main_v87 : Ref sig .tc := ⟨.hbm, 112, rfl⟩
abbrev main_v88 : Ref sig .tc := ⟨.hbm, 113, rfl⟩
abbrev main_cst_20 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_21 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩

abbrev nD : Nat := 1
abbrev τ : Topo := Topo.v7x

variable {F : FTy → Type} [FloatOps F]

class Facts₀ : Prop where
  transposes_S4096x50x4x64_S4096x4x50x64_0_2_1_3 : S4096x50x4x64.Transposes [0, 2, 1, 3] S4096x4x50x64
  bcast_S4096x50_S4096x1x50_0_2 : S4096x50.BroadcastsInDim S4096x1x50 (![0, 2] : Fin 2 → Fin S4096x1x50.rank)
  bcast_S4096x1x50_S4096x4x50_0_1_2 : S4096x1x50.BroadcastsInDim S4096x4x50 (![0, 1, 2] : Fin 3 → Fin S4096x4x50.rank)
  reducesTo_S4096x4x50_S4x50_d0 : S4096x4x50.ReducesTo [0] S4x50
  h_S_ : 0 < S_.numel
  bcast_S_S4x50 : S_.BroadcastsInDim S4x50 (![] : Fin 0 → Fin S4x50.rank)
  bcast_S4x50_S1x4x50_1_2 : S4x50.BroadcastsInDim S1x4x50 (![1, 2] : Fin 2 → Fin S1x4x50.rank)
  bcast_S1x4x50_S4096x4x50_0_1_2 : S1x4x50.BroadcastsInDim S4096x4x50 (![0, 1, 2] : Fin 3 → Fin S4096x4x50.rank)
  bcast_S_S4096x4x50 : S_.BroadcastsInDim S4096x4x50 (![] : Fin 0 → Fin S4096x4x50.rank)
  bcast_S4096x4x50_S4096x4x1x50_0_1_3 : S4096x4x50.BroadcastsInDim S4096x4x1x50 (![0, 1, 3] : Fin 3 → Fin S4096x4x1x50.rank)
  reducesTo_S4096x4x1x64_S4096x4x1_d3 : S4096x4x1x64.ReducesTo [3] S4096x4x1
  bcast_S4096x4x1_S4096x4x1x1_0_1_2 : S4096x4x1.BroadcastsInDim S4096x4x1x1 (![0, 1, 2] : Fin 3 → Fin S4096x4x1x1.rank)
  bcast_S_S4096x4x1x1 : S_.BroadcastsInDim S4096x4x1x1 (![] : Fin 0 → Fin S4096x4x1x1.rank)
  bcast_S4096x4x1x1_S4096x4x1x64_0_1_2_3 : S4096x4x1x1.BroadcastsInDim S4096x4x1x64 (![0, 1, 2, 3] : Fin 4 → Fin S4096x4x1x64.rank)
  transposes_S4096x4x1x64_S4096x4x64x1_0_1_3_2 : S4096x4x1x64.Transposes [0, 1, 3, 2] S4096x4x64x1
  shapeCasts_S4096x4x50x1_S4096x4x50 : S4096x4x50x1.ShapeCasts S4096x4x50
  shapeCasts_S4096x4x1x64_S4096x4x64 : S4096x4x1x64.ShapeCasts S4096x4x64
  dot_S4096x4x1x50_S4096x4x50x64_S4096x4x1x64_3_2_2_3_01_01_wf : DotDims.WF S4096x4x1x50 S4096x4x50x64 S4096x4x1x64 [3] [2] [2] [3] [0, 1] [0, 1]
  dot_S4096x4x50x64_S4096x4x64x1_S4096x4x50x1_3_2_2_3_01_01_wf : DotDims.WF S4096x4x50x64 S4096x4x64x1 S4096x4x50x1 [3] [2] [2] [3] [0, 1] [0, 1]

variable [Facts₀]

def dot_S4096x4x1x50_S4096x4x50x64_S4096x4x1x64_3_2_2_3_01_01 : DotDims S4096x4x1x50 S4096x4x50x64 S4096x4x1x64 where
  lhsContracting := [3]
  rhsContracting := [2]
  lhsNonContracting := [2]
  rhsNonContracting := [3]
  lhsBatch := [0, 1]
  rhsBatch := [0, 1]
  wf := dot_S4096x4x1x50_S4096x4x50x64_S4096x4x1x64_3_2_2_3_01_01_wf
def dot_S4096x4x50x64_S4096x4x64x1_S4096x4x50x1_3_2_2_3_01_01 : DotDims S4096x4x50x64 S4096x4x64x1 S4096x4x50x1 where
  lhsContracting := [3]
  rhsContracting := [2]
  lhsNonContracting := [2]
  rhsNonContracting := [3]
  lhsBatch := [0, 1]
  rhsBatch := [0, 1]
  wf := dot_S4096x4x50x64_S4096x4x64x1_S4096x4x50x1_3_2_2_3_01_01_wf

class Facts : Prop extends Facts₀ where

variable [Facts]
-- ==== Proof.Spec.lean ====
/-
  One routing step of the capsule layer, on the extended reals, one batch row and one capsule at a time.

  For a batch row b and a capsule k the layer forms, from the weights w[b,k,s] (s < 50) and the items
  x[b,s,k,h] (h < 64):
    v_h      = Σ_s w_s · x_{s,h}                         (the weighted sum of the items)
    n        = Σ_h v_h · v_h                             (its squared norm)
    scale    = (n / (1 + n)) / sqrt (n + ε)              (the squash factor; ε the f32 nearest 1e-9)
    ic_h     = scale · v_h                               (the capsule)
    delta_s  = Σ_h x_{s,h} · ic_h                        (the agreement of item s with the capsule)
  The functions below take the products p_{s,h} = w_s · x_{s,h} as their argument, so that the same text
  reads a 128-row block of the kernel and the whole 4096-row array. No law of the extended reals beyond
  commutativity of finite sums is used anywhere: both programs build these very expressions.
-/
import Idealize.ShloMosaic.PureOps.Ideal
import Idealize.ShloMosaic.Lib.ValueIdx

noncomputable section

namespace Cert.Route

open Idealize.ShloMosaic Idealize.ShloMosaic.ValueIdx

/-- The literal 1 of the squash factor, kept as its f32 word. -/
abbrev one : EReal := Ideal.ofBits .f32 0x3F800000#32
/-- The literal ε of the squash factor (the f32 nearest 1e-9), kept as its word. -/
abbrev eps : EReal := Ideal.ofBits .f32 0x3089705F#32

/-- v_h: the sum over the 50 items of the products. -/
def capV (p : Fin 50 → Fin 64 → EReal) (h : Fin 64) : EReal := ∑ s, p s h
/-- n: the squared norm of v. -/
def capN (p : Fin 50 → Fin 64 → EReal) : EReal := ∑ h, capV p h * capV p h
/-- The squash factor (n / (1 + n)) / sqrt (n + ε). -/
def capS (p : Fin 50 → Fin 64 → EReal) : EReal :=
  Ideal.div (Ideal.div (capN p) (one + capN p)) (Ideal.sqrt (capN p + eps))
/-- ic_h: the squashed capsule. -/
def capIC (p : Fin 50 → Fin 64 → EReal) (h : Fin 64) : EReal := capS p * capV p h
/-- delta_s: item s against a capsule. -/
def capD (x : Fin 50 → Fin 64 → EReal) (ic : Fin 64 → EReal) (s : Fin 50) : EReal := ∑ h, x s h * ic h

/-- Lane 64·k + h of the merged (capsule, hidden) axis of width 256. -/
def lane (k : Fin 4) (h : Fin 64) : Fin 256 := ⟨64 * k.val + h.val, by have := k.isLt; have := h.isLt; omega⟩

section Arrays
variable {n : Nat}

/-- The products of row b, capsule k: w[b,k,s] · x[b,s,64k+h], the items with (capsule, hidden) merged. -/
def prodAt (x : (⟨3, ![n, 50, 256]⟩ : Shape).Idx → EReal) (w : (⟨3, ![n, 4, 50]⟩ : Shape).Idx → EReal)
    (b : Fin n) (k : Fin 4) : Fin 50 → Fin 64 → EReal := fun s h => w (ix3 b k s) * x (ix3 b s (lane k h))

/-- The capsules of an n-row batch: ic[b,k,h]. -/
def ic (x : (⟨3, ![n, 50, 256]⟩ : Shape).Idx → EReal) (w : (⟨3, ![n, 4, 50]⟩ : Shape).Idx → EReal) :
    (⟨3, ![n, 4, 64]⟩ : Shape).Idx → EReal := fun j => capIC (prodAt x w (j 0) (j 1)) (j 2)

/-- The agreements of an n-row batch: delta[b,k,s]. -/
def delta (x : (⟨3, ![n, 50, 256]⟩ : Shape).Idx → EReal) (w : (⟨3, ![n, 4, 50]⟩ : Shape).Idx → EReal) :
    (⟨3, ![n, 4, 50]⟩ : Shape).Idx → EReal :=
  fun j => capD (fun s h => x (ix3 (j 0) s (lane (j 1) h))) (capIC (prodAt x w (j 0) (j 1))) (j 2)

/-- One routing iteration on the logits: cw + delta, the weights made from cw by `sm` (the masked softmax over
    the batch, which both programs compute by the same host operations and which is never opened). -/
def step (sm : ((⟨3, ![n, 4, 50]⟩ : Shape).Idx → EReal) → (⟨3, ![n, 4, 50]⟩ : Shape).Idx → EReal)
    (x : (⟨3, ![n, 50, 256]⟩ : Shape).Idx → EReal) (cw : (⟨3, ![n, 4, 50]⟩ : Shape).Idx → EReal) :
    (⟨3, ![n, 4, 50]⟩ : Shape).Idx → EReal := fun j => cw j + delta x (sm cw) j

/-- Three routing iterations: the capsules of the third, from logits updated twice. -/
def routed (sm : ((⟨3, ![n, 4, 50]⟩ : Shape).Idx → EReal) → (⟨3, ![n, 4, 50]⟩ : Shape).Idx → EReal)
    (x : (⟨3, ![n, 50, 256]⟩ : Shape).Idx → EReal) (cw : (⟨3, ![n, 4, 50]⟩ : Shape).Idx → EReal) :
    (⟨3, ![n, 4, 64]⟩ : Shape).Idx → EReal := ic x (sm (step sm x (step sm x cw)))

end Arrays

end Cert.Route

end
-- ==== Proof.Body.lean ====
/-
  The routing kernel's body, as three functions of vectors, and what each holds at an index.

  For each of the four capsules k the body takes the item slice `it` (128 × 50 × 64: lanes 64k … 64k+63 of the
  item block) and the weight slice `wk` (128 × 1 × 50: row k of the weight block) and computes
    `wProd wk it`    the products w[p,s] · it[p,s,h]          (the weights broadcast along h)
    `squash pr`      from the products, ic[p,h] = scale[p] · v[p,h], v the sum of the products over s
    `deltaOf it ic`  delta[p,s] = Σ_h it[p,s,h] · ic[p,h]      (the capsule broadcast along s)
  The definitions are the printed operations, so each of the body's twenty payloads is one of them applied to
  slices (the next module); the theorems read them at an index as the row-level functions of the specification.
-/
import proofs.«121342_j42090679501341_1_alg».proof.KernelIdeal
import proofs.«121342_j42090679501341_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Idealize.ShloMosaic Idealize.ShloMosaic.TcCoe Idealize.ShloMosaic.ValueIdx
open Cert.KernelIdeal Cert.KernelIdeal.Facts₀ Cert.KernelIdeal.Facts Cert.Route

variable [Facts]

section Defs
variable {F : FTy → Type} [FloatOps F]

/-- The products: the weight row, re-laid as a column and broadcast along the hidden axis, times the items. -/
def wProd (wk : FVec F S128x1x50 .f32) (it : FVec F S128x50x64 .f32) : FVec F S128x50x64 .f32 :=
  mulf (broadcastTo S128x50x64 (shapeCast S128x50x1 (shapeCast S128x50 wk shapeCasts_S128x1x50_S128x50) shapeCasts_S128x50_S128x50x1) broadcasts_S128x50x1_S128x50x64) it

/-- The weighted sum v = Σ_s of the products. -/
def vsum (pr : FVec F S128x50x64 .f32) : FVec F S128x64 .f32 :=
  multiReduction .add [1] S128x64 pr 0x00000000#32 reduces_S128x50x64_S128x64 (.inl rfl) rfl

/-- The squared norm n = Σ_h v · v, as a column. -/
def norm2 (v : FVec F S128x64 .f32) : FVec F S128x1 .f32 :=
  shapeCast S128x1 (multiReduction .add [1] S128 (mulf v v) 0x00000000#32 reduces_S128x64_S128 (.inl rfl) rfl) shapeCasts_S128_S128x1

/-- The squash factor (n / (1 + n)) / sqrt (n + ε), as a column. -/
def scaleOf (n : FVec F S128x1 .f32) : FVec F S128x1 .f32 :=
  divf (divf n (addf (broadcast S128x1 (Scalar.ofBits .f32 0x3F800000#32)) n))
    (sqrt (addf n (broadcast S128x1 (Scalar.ofBits .f32 0x3089705F#32))))

/-- The capsule: the squash factor, broadcast along the hidden axis, times v. -/
def squash (pr : FVec F S128x50x64 .f32) : FVec F S128x64 .f32 :=
  mulf (broadcastTo S128x64 (scaleOf (norm2 (vsum pr))) broadcasts_S128x1_S128x64) (vsum pr)

/-- The agreements: the items times the capsule broadcast along the item axis, summed over the hidden axis. -/
def deltaOf (it : FVec F S128x50x64 .f32) (ic : FVec F S128x64 .f32) : FVec F S128x1x50 .f32 :=
  shapeCast S128x1x50
    (multiReduction .add [2] S128x50
      (mulf it (broadcastTo S128x50x64 (shapeCast S128x1x64 ic shapeCasts_S128x64_S128x1x64) broadcasts_S128x1x64_S128x50x64))
      0x00000000#32 reduces_S128x50x64_S128x50 (.inl rfl) rfl)
    shapeCasts_S128x50_S128x1x50

end Defs

/-! ## At an index, on the extended reals -/

/-- The weight row re-laid as a column reads the row: (p, s, 0) of the column is (p, 0, s) of the row. -/
private theorem col_apply (wk : FVec Ideal S128x1x50 .f32) (p : Fin 128) (s : Fin 50) :
    shapeCast S128x50x1 (shapeCast S128x50 wk shapeCasts_S128x1x50_S128x50) shapeCasts_S128x50_S128x50x1 (ix3 p s 0)
      = wk (ix3 p 0 s) := by
  refine (shapeCast_apply _ _ _ (ix2 p s) ?_).trans ?_
  · rw [Shape.rowMajor_val_two, Shape.rowMajor_val_three]
    show p.val * 50 + s.val = (p.val * 50 + s.val) * 1 + 0
    omega
  · refine shapeCast_apply wk _ _ (ix3 p 0 s) ?_
    rw [Shape.rowMajor_val_three, Shape.rowMajor_val_two]
    show (p.val * 1 + 0) * 50 + s.val = p.val * 50 + s.val
    omega

/-- A product is the weight of (p, s) times the item of (p, s, h). -/
theorem wProd_apply (wk : FVec Ideal S128x1x50 .f32) (it : FVec Ideal S128x50x64 .f32) (p : Fin 128) (s : Fin 50) (h : Fin 64) :
    wProd wk it (ix3 p s h) = wk (ix3 p 0 s) * it (ix3 p s h) := by
  unfold wProd
  rw [mulf_apply]
  congr 1
  refine (broadcastTo_apply _ _ (ix3 p s h) (ix3 p s 0) ?_).trans (col_apply wk p s)
  intro a
  match a with
  | ⟨0, _⟩ => rfl
  | ⟨1, _⟩ => rfl
  | ⟨2, _⟩ => rfl

/-- The weighted sum of row p at h is the sum of that row's products over the items. -/
private theorem vsum_apply (pr : FVec Ideal S128x50x64 .f32) (p : Fin 128) (h : Fin 64) :
    vsum pr (ix2 p h) = capV (fun s h' => pr (ix3 p s h')) h := by
  unfold vsum capV
  refine (Ideal.multiReduction_add_single _ _ _ _ _ (ix2 p h)).trans ?_
  refine Finset.sum_congr rfl fun k _ => ?_
  have hl : reduces_S128x50x64_S128x64.lift (ix2 p h) k = ix3 p (k : Fin 50) h := by
    funext c
    match c with
    | ⟨0, _⟩ => exact Fin.ext rfl
    | ⟨1, _⟩ => exact Fin.ext rfl
    | ⟨2, _⟩ => exact Fin.ext rfl
  rw [hl]
  rfl

/-- The squared norm of row p, read in the column, is the sum over the hidden axis of v · v. -/
private theorem norm2_apply (v : FVec Ideal S128x64 .f32) (p : Fin 128) :
    norm2 v (ix2 p 0) = ∑ h : Fin 64, v (ix2 p h) * v (ix2 p h) := by
  unfold norm2
  refine (shapeCast_apply _ _ _ (ix1 p) ?_).trans ?_
  · rw [Shape.rowMajor_val_one, Shape.rowMajor_val_two]
    show p.val = p.val * 1 + 0
    omega
  · refine (Ideal.multiReduction_add_single _ _ _ _ _ (ix1 p)).trans ?_
    refine Finset.sum_congr rfl fun k _ => ?_
    have hl : reduces_S128x64_S128.lift (ix1 p) k = ix2 p (k : Fin 64) := by
      funext c
      match c with
      | ⟨0, _⟩ => exact Fin.ext rfl
      | ⟨1, _⟩ => exact Fin.ext rfl
    rw [mulf_apply, hl]
    rfl

/-- The squash factor read at an index: (n / (1 + n)) / sqrt (n + ε) of the column's entry. -/
private theorem scaleOf_apply (n : FVec Ideal S128x1 .f32) (j : S128x1.Idx) :
    scaleOf n j = Ideal.div (Ideal.div (n j) (one + n j)) (Ideal.sqrt (n j + eps)) := rfl

/-- The capsule of row p at h is the specification's `capIC` of that row's products. -/
theorem squash_apply (pr : FVec Ideal S128x50x64 .f32) (p : Fin 128) (h : Fin 64) :
    squash pr (ix2 p h) = capIC (fun s h' => pr (ix3 p s h')) h := by
  unfold squash capIC
  rw [mulf_apply, vsum_apply]
  congr 1
  refine (broadcastTo_apply _ _ (ix2 p h) (ix2 p 0) ?_).trans ?_
  · intro a
    match a with
    | ⟨0, _⟩ => rfl
    | ⟨1, _⟩ => rfl
  · rw [scaleOf_apply, norm2_apply]
    unfold capS capN
    simp only [vsum_apply]

/-- A capsule stored as a 128 × 1 × 64 piece reads the 128 × 64 capsule. -/
theorem piece_apply (ic : FVec Ideal S128x64 .f32) (p : Fin 128) (h : Fin 64) :
    shapeCast S128x1x64 ic shapeCasts_S128x64_S128x1x64 (ix3 p 0 h) = ic (ix2 p h) := by
  refine shapeCast_apply ic _ _ (ix2 p h) ?_
  rw [Shape.rowMajor_val_two, Shape.rowMajor_val_three]
  show p.val * 64 + h.val = (p.val * 1 + 0) * 64 + h.val
  omega

/-- The agreement of row p at s is the specification's `capD` of that row's items and capsule. -/
theorem deltaOf_apply (it : FVec Ideal S128x50x64 .f32) (ic : FVec Ideal S128x64 .f32) (p : Fin 128) (s : Fin 50) :
    deltaOf it ic (ix3 p 0 s) = capD (fun s' h' => it (ix3 p s' h')) (fun h' => ic (ix2 p h')) s := by
  unfold deltaOf capD
  refine (shapeCast_apply _ _ _ (ix2 p s) ?_).trans ?_
  · rw [Shape.rowMajor_val_two, Shape.rowMajor_val_three]
    show p.val * 50 + s.val = (p.val * 1 + 0) * 50 + s.val
    omega
  · refine (Ideal.multiReduction_add_single _ _ _ _ _ (ix2 p s)).trans ?_
    refine Finset.sum_congr rfl fun k _ => ?_
    have hl : reduces_S128x50x64_S128x50.lift (ix2 p s) k = ix3 p s (k : Fin 64) := by
      funext c
      match c with
      | ⟨0, _⟩ => exact Fin.ext rfl
      | ⟨1, _⟩ => exact Fin.ext rfl
      | ⟨2, _⟩ => exact Fin.ext rfl
    rw [mulf_apply, hl]
    congr 1
    refine (broadcastTo_apply _ _ (ix3 p s (k : Fin 64)) (ix3 p 0 (k : Fin 64)) ?_).trans (piece_apply ic p k)
    intro a
    match a with
    | ⟨0, _⟩ => rfl
    | ⟨1, _⟩ => rfl
    | ⟨2, _⟩ => rfl

end Cert.KernelIdeal.Body

end
-- ==== Proof.Payload.lean ====
/-
  What one grid point's body leaves in its two output blocks, as the specification's functions of its two input
  blocks: the 128 × 4 × 64 capsule block is `Route.ic` and the 128 × 4 × 50 agreement block is `Route.delta` of
  the item block (128 × 50 × 256, capsule k in lanes 64k … 64k+63) and the weight block (128 × 4 × 50).

  Each block is stored in four pieces, one per capsule k; piece k of the capsule block is `squash` of the products
  of weight row k and item lanes 64k …, and piece k of the agreement block is `deltaOf` of those lanes and that
  capsule. The three pallas_calls run the same body, so the same reading serves each.
-/
import proofs.«121342_j42090679501341_1_alg».proof.Proof.Gen.KernelIdeal.Frame
import proofs.«121342_j42090679501341_1_alg».proof.Proof.Body

set_option maxRecDepth 16384

noncomputable section

namespace Cert.KernelIdeal.Payload

open Idealize.ShloMosaic Idealize.ShloMosaic.TcCoe Idealize.ShloMosaic.ValueIdx
open Cert.KernelIdeal Cert.KernelIdeal.Facts₀ Cert.KernelIdeal.Facts Cert.KernelIdeal.Gen Cert.KernelIdeal.Body Cert.Route

/-! ## The slices -/

/-- Row k of the weight block, as a 128 × 1 × 50 slice, reads the block at (p, k, s). -/
theorem wslice_apply (k : Fin 4) (w : Vec Ideal S128x4x50 .f32) (hs : S128x4x50.Slices ![0, k.val, 0] S128x1x50)
    (p : Fin 128) (s : Fin 50) :
    extractStridedSlice S128x1x50 ![0, k.val, 0] w hs (ix3 p 0 s) = w (ix3 p k s) := by
  refine extractStridedSlice_apply _ _ _ _ (ix3 p k s) ?_
  intro a
  match a with
  | ⟨0, _⟩ => show p.val = 0 + p.val; omega
  | ⟨1, _⟩ => show k.val = k.val + 0; omega
  | ⟨2, _⟩ => show s.val = 0 + s.val; omega

/-- Lanes 64k … 64k+63 of the item block, as a 128 × 50 × 64 slice, read the block at (p, s, 64k+h). -/
theorem islice_apply (k : Fin 4) (o : Nat) (ho : o = 64 * k.val) (x : Vec Ideal S128x50x256 .f32)
    (hs : S128x50x256.Slices ![0, 0, o] S128x50x64) (p : Fin 128) (s : Fin 50) (h : Fin 64) :
    extractStridedSlice S128x50x64 ![0, 0, o] x hs (ix3 p s h) = x (ix3 p s (lane k h)) := by
  refine extractStridedSlice_apply _ _ _ _ (ix3 p s (lane k h)) ?_
  intro a
  match a with
  | ⟨0, _⟩ => show p.val = 0 + p.val; omega
  | ⟨1, _⟩ => show s.val = 0 + s.val; omega
  | ⟨2, _⟩ => show 64 * k.val + h.val = o + h.val; omega

/-! ## One capsule: the squash of the products of weight row k and item lanes 64k … -/

/-- The capsule made from weight row k and item lanes 64k … is the specification's capsule k. -/
theorem cap_apply (k : Fin 4) (o : Nat) (ho : o = 64 * k.val) (x0 : Vec Ideal S128x50x256 .f32) (x1 : Vec Ideal S128x4x50 .f32)
    (hw : S128x4x50.Slices ![0, k.val, 0] S128x1x50) (hi : S128x50x256.Slices ![0, 0, o] S128x50x64) (p : Fin 128) (h : Fin 64) :
    squash (F := Ideal) (wProd (extractStridedSlice S128x1x50 ![0, k.val, 0] x1 hw) (extractStridedSlice S128x50x64 ![0, 0, o] x0 hi)) (ix2 p h)
      = capIC (prodAt x0 x1 p k) h := by
  rw [squash_apply]
  congr 1
  funext s h'
  rw [wProd_apply, wslice_apply, islice_apply k o ho]
  rfl

/-- The agreements of item lanes 64k … with that capsule are the specification's agreements of capsule k. -/
theorem del_apply (k : Fin 4) (o : Nat) (ho : o = 64 * k.val) (x0 : Vec Ideal S128x50x256 .f32) (x1 : Vec Ideal S128x4x50 .f32)
    (hw : S128x4x50.Slices ![0, k.val, 0] S128x1x50) (hi : S128x50x256.Slices ![0, 0, o] S128x50x64) (p : Fin 128) (s : Fin 50) :
    deltaOf (F := Ideal) (extractStridedSlice S128x50x64 ![0, 0, o] x0 hi)
        (squash (wProd (extractStridedSlice S128x1x50 ![0, k.val, 0] x1 hw) (extractStridedSlice S128x50x64 ![0, 0, o] x0 hi))) (ix3 p 0 s)
      = capD (fun s' h' => x0 (ix3 p s' (lane k h'))) (capIC (prodAt x0 x1 p k)) s := by
  rw [deltaOf_apply]
  congr 1
  · funext s' h'
    exact islice_apply k o ho x0 hi p s' h'
  · funext h'
    exact cap_apply k o ho x0 x1 hw hi p h'

/-! ## The body's payloads -/

theorem pay1_eq (v0 : Vec Ideal S128x50x256 .f32) : k0_pay1 v0 = v0 := shapeCast_self _ _
theorem pay2_eq (v2 : Vec Ideal S128x4x50 .f32) : k0_pay2 v2 = v2 := shapeCast_self _ _

theorem cap0_apply (x0 : Vec Ideal S128x50x256 .f32) (x1 : Vec Ideal S128x4x50 .f32) (p : Fin 128) (h : Fin 64) :
    k0_pay4 x0 x1 (ix2 p h) = capIC (prodAt x0 x1 p 0) h := by
  show squash (F := Ideal) (wProd (extractStridedSlice S128x1x50 ![0, 0, 0] (k0_pay2 x1) Gen.slices_S128x4x50_o0_0_0_S128x1x50)
    (extractStridedSlice S128x50x64 ![0, 0, 0] (k0_pay1 x0) Gen.slices_S128x50x256_o0_0_0_S128x50x64)) (ix2 p h) = _
  rw [pay1_eq, pay2_eq]
  exact cap_apply 0 0 rfl x0 x1 _ _ p h

theorem cap1_apply (x0 : Vec Ideal S128x50x256 .f32) (x1 : Vec Ideal S128x4x50 .f32) (p : Fin 128) (h : Fin 64) :
    k0_pay9 (F := Ideal) (k0_pay8 x0 x1) (ix2 p h) = capIC (prodAt x0 x1 p 1) h := by
  show squash (F := Ideal) (wProd (extractStridedSlice S128x1x50 ![0, 1, 0] (k0_pay2 x1) Gen.slices_S128x4x50_o0_1_0_S128x1x50)
    (extractStridedSlice S128x50x64 ![0, 0, 64] (k0_pay1 x0) Gen.slices_S128x50x256_o0_0_64_S128x50x64)) (ix2 p h) = _
  rw [pay1_eq, pay2_eq]
  exact cap_apply 1 64 rfl x0 x1 _ _ p h

theorem cap2_apply (x0 : Vec Ideal S128x50x256 .f32) (x1 : Vec Ideal S128x4x50 .f32) (p : Fin 128) (h : Fin 64) :
    k0_pay13 (F := Ideal) x0 x1 (ix2 p h) = capIC (prodAt x0 x1 p 2) h :=
  cap_apply 2 128 rfl x0 x1 Gen.slices_S128x4x50_o0_2_0_S128x1x50 Gen.slices_S128x50x256_o0_0_128_S128x50x64 p h

theorem cap3_apply (x0 : Vec Ideal S128x50x256 .f32) (x1 : Vec Ideal S128x4x50 .f32) (p : Fin 128) (h : Fin 64) :
    k0_pay18 (F := Ideal) x0 x1 (ix2 p h) = capIC (prodAt x0 x1 p 3) h :=
  cap_apply 3 192 rfl x0 x1 Gen.slices_S128x4x50_o0_3_0_S128x1x50 Gen.slices_S128x50x256_o0_0_192_S128x50x64 p h

/-! ## Where a piece sits in its block -/

private theorem hz : (![0, 0, 0] : Fin 3 → Nat) = fun _ => 0 := by
  funext a
  match a with
  | ⟨0, _⟩ => rfl
  | ⟨1, _⟩ => rfl
  | ⟨2, _⟩ => rfl

/-- Local index (p, 0, h) of capsule k's rows of the capsule block is the block's (p, k, h). -/
theorem emb_cap (k : Fin 4) (inb : ∀ a, (![0, k.val, 0] : Fin 3 → Nat) a + S128x1x64.size a ≤ S128x4x64.size a)
    (p : Fin 128) (h : Fin 64) :
    (Rect.unit (s := S128x4x64) ![0, k.val, 0] S128x1x64.size inb).emb (ix3 p 0 h) = ix3 p k h := by
  funext a
  match a with
  | ⟨0, _⟩ => apply Fin.ext; show 0 + 1 * p.val = p.val; omega
  | ⟨1, _⟩ => apply Fin.ext; show k.val + 1 * 0 = k.val; omega
  | ⟨2, _⟩ => apply Fin.ext; show 0 + 1 * h.val = h.val; omega

/-- What piece k of the capsule block must hold to agree with the specification. -/
theorem piece_cap (x0 : Vec Ideal S128x50x256 .f32) (x1 : Vec Ideal S128x4x50 .f32) (k : Fin 4)
    (inb : ∀ a, (![0, k.val, 0] : Fin 3 → Nat) a + S128x1x64.size a ≤ S128x4x64.size a)
    (ic : FVec Ideal S128x64 .f32) (hic : ∀ p h, ic (ix2 p h) = capIC (prodAt x0 x1 p k) h)
    (x : S128x1x64.Idx) :
    shapeCast S128x1x64 ic Gen.shapeCasts_S128x64_S128x1x64 x
      = Route.ic (n := 128) x0 x1 ((Rect.unit (s := S128x4x64) ![0, k.val, 0] S128x1x64.size inb).emb x) := by
  obtain ⟨p, z, h, rfl⟩ : ∃ p z h, x = ix3 p z h := ⟨x 0, x 1, x 2, eq_ix3 x⟩
  obtain rfl : z = 0 := Subsingleton.elim _ _
  rw [emb_cap, piece_apply, hic]
  rfl

/-- Region 0: the capsule block after the body. -/
theorem out0_2_eq (x0 : Vec Ideal S128x50x256 .f32) (x1 : Vec Ideal S128x4x50 .f32) :
    out0_2 x0 x1 = Route.ic (n := 128) x0 x1 := by
  funext y
  unfold out0_2
  rw [View.ld_unit_zero (S := S128x50x256) hz, View.ld_unit_zero (S := S128x4x50) hz, pay1_eq, pay2_eq]
  refine View.canon_apply_of_pieces (Val := Elt Ideal) (S := S128x4x64) (e := .f32) (Route.ic (n := 128) x0 x1) _ ?_ y (cover0_2 _ _ _ _ y)
  intro pc hpc x
  rcases List.mem_cons.mp hpc with rfl | hpc
  · exact piece_cap x0 x1 3 Gen.inb_S128x4x64_S128x1x64_0_3_0 _ (cap3_apply x0 x1) x
  rcases List.mem_cons.mp hpc with rfl | hpc
  · exact piece_cap x0 x1 2 Gen.inb_S128x4x64_S128x1x64_0_2_0 _ (cap2_apply x0 x1) x
  rcases List.mem_cons.mp hpc with rfl | hpc
  · exact piece_cap x0 x1 1 Gen.inb_S128x4x64_S128x1x64_0_1_0 _ (cap1_apply x0 x1) x
  rcases List.mem_cons.mp hpc with rfl | hpc
  · exact piece_cap x0 x1 0 Gen.inb_S128x4x64_S128x1x64_0_0_0 _ (cap0_apply x0 x1) x
  nomatch hpc

/-! ## The agreement block -/

theorem del0_apply (x0 : Vec Ideal S128x50x256 .f32) (x1 : Vec Ideal S128x4x50 .f32) (p : Fin 128) (s : Fin 50) :
    k0_pay6 x0 x1 (ix3 p 0 s) = capD (fun s' h' => x0 (ix3 p s' (lane 0 h'))) (capIC (prodAt x0 x1 p 0)) s := by
  show deltaOf (F := Ideal) (extractStridedSlice S128x50x64 ![0, 0, 0] (k0_pay1 x0) Gen.slices_S128x50x256_o0_0_0_S128x50x64)
    (squash (wProd (extractStridedSlice S128x1x50 ![0, 0, 0] (k0_pay2 x1) Gen.slices_S128x4x50_o0_0_0_S128x1x50)
      (extractStridedSlice S128x50x64 ![0, 0, 0] (k0_pay1 x0) Gen.slices_S128x50x256_o0_0_0_S128x50x64))) (ix3 p 0 s) = _
  rw [pay1_eq, pay2_eq]
  exact del_apply 0 0 rfl x0 x1 _ _ p s

theorem del1_apply (x0 : Vec Ideal S128x50x256 .f32) (x1 : Vec Ideal S128x4x50 .f32) (p : Fin 128) (s : Fin 50) :
    k0_pay11 (F := Ideal) (k0_pay7 x0) (k0_pay8 x0 x1) (ix3 p 0 s)
      = capD (fun s' h' => x0 (ix3 p s' (lane 1 h'))) (capIC (prodAt x0 x1 p 1)) s := by
  show deltaOf (F := Ideal) (extractStridedSlice S128x50x64 ![0, 0, 64] (k0_pay1 x0) Gen.slices_S128x50x256_o0_0_64_S128x50x64)
    (squash (wProd (extractStridedSlice S128x1x50 ![0, 1, 0] (k0_pay2 x1) Gen.slices_S128x4x50_o0_1_0_S128x1x50)
      (extractStridedSlice S128x50x64 ![0, 0, 64] (k0_pay1 x0) Gen.slices_S128x50x256_o0_0_64_S128x50x64))) (ix3 p 0 s) = _
  rw [pay1_eq, pay2_eq]
  exact del_apply 1 64 rfl x0 x1 _ _ p s

theorem del2_apply (x0 : Vec Ideal S128x50x256 .f32) (x1 : Vec Ideal S128x4x50 .f32) (p : Fin 128) (s : Fin 50) :
    k0_pay16 (F := Ideal) (k0_pay12 x0) (k0_pay14 x0 x1) (ix3 p 0 s)
      = capD (fun s' h' => x0 (ix3 p s' (lane 2 h'))) (capIC (prodAt x0 x1 p 2)) s :=
  del_apply 2 128 rfl x0 x1 Gen.slices_S128x4x50_o0_2_0_S128x1x50 Gen.slices_S128x50x256_o0_0_128_S128x50x64 p s

theorem del3_apply (x0 : Vec Ideal S128x50x256 .f32) (x1 : Vec Ideal S128x4x50 .f32) (p : Fin 128) (s : Fin 50) :
    k0_pay20 (F := Ideal) x0 x1 (ix3 p 0 s)
      = capD (fun s' h' => x0 (ix3 p s' (lane 3 h'))) (capIC (prodAt x0 x1 p 3)) s :=
  del_apply 3 192 rfl x0 x1 Gen.slices_S128x4x50_o0_3_0_S128x1x50 Gen.slices_S128x50x256_o0_0_192_S128x50x64 p s

/-- Local index (p, 0, s) of capsule k's rows of the agreement block is the block's (p, k, s). -/
theorem emb_del (k : Fin 4) (inb : ∀ a, (![0, k.val, 0] : Fin 3 → Nat) a + S128x1x50.size a ≤ S128x4x50.size a)
    (p : Fin 128) (s : Fin 50) :
    (Rect.unit (s := S128x4x50) ![0, k.val, 0] S128x1x50.size inb).emb (ix3 p 0 s) = ix3 p k s := by
  funext a
  match a with
  | ⟨0, _⟩ => apply Fin.ext; show 0 + 1 * p.val = p.val; omega
  | ⟨1, _⟩ => apply Fin.ext; show k.val + 1 * 0 = k.val; omega
  | ⟨2, _⟩ => apply Fin.ext; show 0 + 1 * s.val = s.val; omega

/-- What piece k of the agreement block must hold to agree with the specification. -/
theorem piece_del (x0 : Vec Ideal S128x50x256 .f32) (x1 : Vec Ideal S128x4x50 .f32) (k : Fin 4)
    (inb : ∀ a, (![0, k.val, 0] : Fin 3 → Nat) a + S128x1x50.size a ≤ S128x4x50.size a)
    (d : FVec Ideal S128x1x50 .f32)
    (hd : ∀ p s, d (ix3 p 0 s) = capD (fun s' h' => x0 (ix3 p s' (lane k h'))) (capIC (prodAt x0 x1 p k)) s)
    (x : S128x1x50.Idx) :
    d x = Route.delta (n := 128) x0 x1 ((Rect.unit (s := S128x4x50) ![0, k.val, 0] S128x1x50.size inb).emb x) := by
  obtain ⟨p, z, s, rfl⟩ : ∃ p z s, x = ix3 p z s := ⟨x 0, x 1, x 2, eq_ix3 x⟩
  obtain rfl : z = 0 := Subsingleton.elim _ _
  rw [emb_del, hd]
  rfl

/-- Region 0: the agreement block after the body. -/
theorem out0_3_eq (x0 : Vec Ideal S128x50x256 .f32) (x1 : Vec Ideal S128x4x50 .f32) :
    out0_3 x0 x1 = Route.delta (n := 128) x0 x1 := by
  funext y
  unfold out0_3
  rw [View.ld_unit_zero (S := S128x50x256) hz, View.ld_unit_zero (S := S128x4x50) hz, pay1_eq, pay2_eq]
  refine View.canon_apply_of_pieces (Val := Elt Ideal) (S := S128x4x50) (e := .f32) (Route.delta (n := 128) x0 x1) _ ?_ y (cover0_3 _ _ _ _ y)
  intro pc hpc x
  rcases List.mem_cons.mp hpc with rfl | hpc
  · exact piece_del x0 x1 3 Gen.inb_S128x4x50_S128x1x50_0_3_0 _ (del3_apply x0 x1) x
  rcases List.mem_cons.mp hpc with rfl | hpc
  · exact piece_del x0 x1 2 Gen.inb_S128x4x50_S128x1x50_0_2_0 _ (del2_apply x0 x1) x
  rcases List.mem_cons.mp hpc with rfl | hpc
  · exact piece_del x0 x1 1 Gen.inb_S128x4x50_S128x1x50_0_1_0 _ (del1_apply x0 x1) x
  rcases List.mem_cons.mp hpc with rfl | hpc
  · exact piece_del x0 x1 0 Gen.inb_S128x4x50_S128x1x50_0_0_0 _ (del0_apply x0 x1) x
  nomatch hpc

/-! ## Regions 1 and 2: the same body, so the same blocks -/

/-- Region 1 runs the same body. -/
theorem out1_2_eq (x0 : Vec Ideal S128x50x256 .f32) (x1 : Vec Ideal S128x4x50 .f32) :
    out1_2 x0 x1 = Route.ic (n := 128) x0 x1 := by
  show out0_2 x0 x1 = _
  exact out0_2_eq x0 x1

theorem out1_3_eq (x0 : Vec Ideal S128x50x256 .f32) (x1 : Vec Ideal S128x4x50 .f32) :
    out1_3 x0 x1 = Route.delta (n := 128) x0 x1 := by
  show out0_3 x0 x1 = _
  exact out0_3_eq x0 x1

/-- Region 2 runs the same body. -/
theorem out2_2_eq (x0 : Vec Ideal S128x50x256 .f32) (x1 : Vec Ideal S128x4x50 .f32) :
    out2_2 x0 x1 = Route.ic (n := 128) x0 x1 := by
  show out0_2 x0 x1 = _
  exact out0_2_eq x0 x1

theorem out2_3_eq (x0 : Vec Ideal S128x50x256 .f32) (x1 : Vec Ideal S128x4x50 .f32) :
    out2_3 x0 x1 = Route.delta (n := 128) x0 x1 := by
  show out0_3 x0 x1 = _
  exact out0_3_eq x0 x1

end Cert.KernelIdeal.Payload

end
-- ==== Proof.Region0.lean ====
/-
  Region 0 (the first pallas_call), from blocks to whole arrays: whatever the TensorCore's buffers hold when
  the region is entered (`V`), it leaves the specification's capsules `Route.ic` and agreements `Route.delta` of its
  two input arrays in its two output arrays, and its input arrays as they were.

  Grid point t (of 32) works on batch rows 128·t … 128·t + 127 of every window, all other axes whole; so block t
  of an output is the 128-row function of block t of the inputs (the body's reading), which is the 4096-row
  function restricted to those rows, because `Route.ic` and `Route.delta` treat each batch row on its own; and the
  32 blocks cover the array.
-/
import proofs.«121342_j42090679501341_1_alg».proof.Proof.Gen.KernelIdeal.Frame
import proofs.«121342_j42090679501341_1_alg».proof.Proof.Payload
import Idealize.ShloMosaic.Lib.Pipeline.Value

set_option maxRecDepth 16384

noncomputable section

namespace Cert.KernelIdeal.Region0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Facts₀ Cert.KernelIdeal.Facts Cert.KernelIdeal.Gen Cert.KernelIdeal.Payload Cert.Route

variable (V : (c : Dev nD) → (b : Ref sig .tc) → Buf (Elt Ideal) ((c : Thread nD τ).loc b))

/-! ## The grid: point t holds batch rows 128·t … 128·t + 127 of every window -/

/-- The printed index maps, decided over the 32 points: block t of every window is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Batch row p of block t is row 128·t + p of the array. -/
def row (t : Fin cfg0.N) (p : Fin 128) : Fin 4096 :=
  ⟨128 * t.val + p.val, by have h : t.val < 32 := N_0 ▸ t.isLt; have := p.isLt; omega⟩

/-- The item block of point t reads the item array at its rows. -/
theorem item_blk (c : Dev nD) (t : Fin cfg0.N) (p : Fin 128) (s : Fin 50) (l : Fin 256) :
    iblk0 V c 0 t (ix3 p s l) = V c main_v0 (ix3 (row t p) s l) := by
  obtain ⟨e0, e1, e2, -⟩ := idx_facts t
  show V c main_v0 (((cfg0.win 0).blk t).view.emb (ix3 p s l)) = _
  refine congrArg _ (funext fun a => Fin.ext ?_)
  match a with
  | ⟨0, _⟩ => show win0_0.index t (0 : Fin 3) * 128 + 1 * p.val = 128 * t.val + p.val; omega
  | ⟨1, _⟩ => show win0_0.index t (1 : Fin 3) * 50 + 1 * s.val = s.val; omega
  | ⟨2, _⟩ => show win0_0.index t (2 : Fin 3) * 256 + 1 * l.val = l.val; omega

/-- The weight block of point t reads the weight array at its rows. -/
theorem w_blk (c : Dev nD) (t : Fin cfg0.N) (p : Fin 128) (k : Fin 4) (s : Fin 50) :
    iblk0 V c 1 t (ix3 p k s) = V c main_v17 (ix3 (row t p) k s) := by
  obtain ⟨-, -, -, e0, e1, e2, -⟩ := idx_facts t
  show V c main_v17 (((cfg0.win 1).blk t).view.emb (ix3 p k s)) = _
  refine congrArg _ (funext fun a => Fin.ext ?_)
  match a with
  | ⟨0, _⟩ => show win0_1.index t (0 : Fin 3) * 128 + 1 * p.val = 128 * t.val + p.val; omega
  | ⟨1, _⟩ => show win0_1.index t (1 : Fin 3) * 4 + 1 * k.val = k.val; omega
  | ⟨2, _⟩ => show win0_1.index t (2 : Fin 3) * 50 + 1 * s.val = s.val; omega

/-! ## The capsule array -/

/-- Local index (p, k, h) of point t's block of the capsule array is the array's (128·t + p, k, h). -/
theorem cap_emb (t : Fin cfg0.N) (p : Fin 128) (k : Fin 4) (h : Fin 64) :
    ((cfg0.win 2).blk t).view.emb (ix3 p k h) = ix3 (row t p) k h := by
  obtain ⟨-, -, -, -, -, -, e0, e1, e2, -⟩ := idx_facts t
  funext a
  apply Fin.ext
  match a with
  | ⟨0, _⟩ => show win0_2.index t (0 : Fin 3) * 128 + 1 * p.val = 128 * t.val + p.val; omega
  | ⟨1, _⟩ => show win0_2.index t (1 : Fin 3) * 4 + 1 * k.val = k.val; omega
  | ⟨2, _⟩ => show win0_2.index t (2 : Fin 3) * 64 + 1 * h.val = h.val; omega

/-- The products of block-local row p of point t's blocks are those of row 128·t + p of the arrays. -/
theorem prodAt_blk (c : Dev nD) (t : Fin cfg0.N) (p : Fin 128) (k : Fin 4) :
    prodAt (n := 128) (iblk0 V c 0 t) (iblk0 V c 1 t) p k = prodAt (n := 4096) (V c main_v0) (V c main_v17) (row t p) k := by
  funext s h
  exact congrArg₂ (fun a b : EReal => a * b) (w_blk V c t p k s) (item_blk V c t p s (lane k h))

/-- The 128-row capsules of point t's blocks are the 4096-row capsules at the block's place in the array. -/
theorem ic_blk (c : Dev nD) (t : Fin cfg0.N) (j : S128x4x64.Idx) :
    Route.ic (n := 128) (iblk0 V c 0 t) (iblk0 V c 1 t) j
      = Route.ic (n := 4096) (V c main_v0) (V c main_v17) (((cfg0.win 2).blk t).view.emb j) := by
  obtain ⟨p, k, h, rfl⟩ : ∃ p k h, j = ix3 p k h := ⟨j 0, j 1, j 2, eq_ix3 j⟩
  rw [cap_emb]
  show capIC (prodAt (n := 128) (iblk0 V c 0 t) (iblk0 V c 1 t) p k) h
    = capIC (prodAt (n := 4096) (V c main_v0) (V c main_v17) (row t p) k) h
  rw [prodAt_blk]

/-- What point t writes back to the capsule array is block t of the 4096-row capsules. -/
theorem flushed2_eq (c : Dev nD) (t : Fin cfg0.N) :
    (dat0 V c).flushed 2 t
      = ((cfg0.win 2).blk t).view.read (Elt Ideal) (Route.ic (n := 4096) (V c main_v0) (V c main_v17)) := by
  show (cfg0.win 2).cut (grid0.coords t) ((dat0 V c).after 2 t) = _
  rw [after0_2, out0_2_eq]
  funext j
  exact ic_blk V c t j

/-- An index of the capsule array is in point t's block iff each coordinate is in the block's range on its axis. -/
theorem mem_blk2 (t : Fin cfg0.N) (i : S4096x4x64.Idx) :
    i ∈ ((cfg0.win 2).blk t).view.set ↔ ∀ a : Fin 3, win0_2.index t a * S128x4x64.size a ≤ (i a).val
      ∧ (i a).val < win0_2.index t a * S128x4x64.size a + S128x4x64.size a := by
  show i ∈ ((View.whole main_v18_0).slice (win0_2.rect t)).set ↔ _
  rw [View.set_slice_whole, Rect.mem_set_unit]
  exact Iff.rfl

/-- Every index of the capsule array is in the block of the point its batch row names: row r is in block r / 128. -/
theorem cover2 (i : S4096x4x64.Idx) :
    ∃ t : Fin cfg0.N, (cfg0.win 2).flush t = true ∧ i ∈ ((cfg0.win 2).blk t).view.set := by
  have hi0 : (i 0).val < 4096 := (i 0).isLt
  have hi1 : (i 1).val < 4 := (i 1).isLt
  have hi2 : (i 2).val < 64 := (i 2).isLt
  have hN : (i 0).val / 128 < cfg0.N := by show (i 0).val / 128 < grid0.N; rw [N_0]; omega
  obtain ⟨-, -, -, -, -, -, e0, e1, e2, -⟩ := idx_facts ⟨(i 0).val / 128, hN⟩
  have e0' : win0_2.index ⟨(i 0).val / 128, hN⟩ (0 : Fin 3) = (i 0).val / 128 := e0
  refine ⟨⟨(i 0).val / 128, hN⟩, flush0_2 _, ?_⟩
  rw [mem_blk2]
  intro a
  match a with
  | ⟨0, _⟩ =>
    show win0_2.index ⟨(i 0).val / 128, hN⟩ (0 : Fin 3) * 128 ≤ (i 0).val
      ∧ (i 0).val < win0_2.index ⟨(i 0).val / 128, hN⟩ (0 : Fin 3) * 128 + 128
    omega
  | ⟨1, _⟩ =>
    show win0_2.index ⟨(i 0).val / 128, hN⟩ (1 : Fin 3) * 4 ≤ (i 1).val
      ∧ (i 1).val < win0_2.index ⟨(i 0).val / 128, hN⟩ (1 : Fin 3) * 4 + 4
    omega
  | ⟨2, _⟩ =>
    show win0_2.index ⟨(i 0).val / 128, hN⟩ (2 : Fin 3) * 64 ≤ (i 2).val
      ∧ (i 2).val < win0_2.index ⟨(i 0).val / 128, hN⟩ (2 : Fin 3) * 64 + 64
    omega

/-- The capsule array after the region. -/
theorem ic_final (c : Dev nD) :
    (dat0 V c).arrAt 2 cfg0.N = Route.ic (n := 4096) (V c main_v0) (V c main_v17) := by
  exact (dat0 V c).arrAt_eq_of_cover 2 _ (fun t _ => flushed2_eq V c t) cover2

/-! ## The agreement array -/

/-- Local index (p, k, s) of point t's block of the agreement array is the array's (128·t + p, k, s). -/
theorem del_emb (t : Fin cfg0.N) (p : Fin 128) (k : Fin 4) (s : Fin 50) :
    ((cfg0.win 3).blk t).view.emb (ix3 p k s) = ix3 (row t p) k s := by
  obtain ⟨-, -, -, -, -, -, -, -, -, e0, e1, e2⟩ := idx_facts t
  funext a
  apply Fin.ext
  match a with
  | ⟨0, _⟩ => show win0_3.index t (0 : Fin 3) * 128 + 1 * p.val = 128 * t.val + p.val; omega
  | ⟨1, _⟩ => show win0_3.index t (1 : Fin 3) * 4 + 1 * k.val = k.val; omega
  | ⟨2, _⟩ => show win0_3.index t (2 : Fin 3) * 50 + 1 * s.val = s.val; omega

/-- The items of capsule k in block-local row p of point t's block are those of row 128·t + p of the array. -/
theorem items_blk (c : Dev nD) (t : Fin cfg0.N) (p : Fin 128) (k : Fin 4) :
    (fun (s : Fin 50) (h : Fin 64) => (iblk0 V c 0 t (ix3 p s (lane k h)) : EReal))
      = fun s h => V c main_v0 (ix3 (row t p) s (lane k h)) :=
  funext fun s => funext fun h => item_blk V c t p s (lane k h)

/-- The 128-row agreements of point t's blocks are the 4096-row agreements at the block's place in the array. -/
theorem delta_blk (c : Dev nD) (t : Fin cfg0.N) (j : S128x4x50.Idx) :
    Route.delta (n := 128) (iblk0 V c 0 t) (iblk0 V c 1 t) j
      = Route.delta (n := 4096) (V c main_v0) (V c main_v17) (((cfg0.win 3).blk t).view.emb j) := by
  obtain ⟨p, k, s, rfl⟩ : ∃ p k s, j = ix3 p k s := ⟨j 0, j 1, j 2, eq_ix3 j⟩
  rw [del_emb]
  exact congrArg₂ (fun x ic => capD x ic s) (items_blk V c t p k) (congrArg capIC (prodAt_blk V c t p k))

/-- What point t writes back to the agreement array is block t of the 4096-row agreements. -/
theorem flushed3_eq (c : Dev nD) (t : Fin cfg0.N) :
    (dat0 V c).flushed 3 t
      = ((cfg0.win 3).blk t).view.read (Elt Ideal) (Route.delta (n := 4096) (V c main_v0) (V c main_v17)) := by
  show (cfg0.win 3).cut (grid0.coords t) ((dat0 V c).after 3 t) = _
  rw [after0_3, out0_3_eq]
  funext j
  exact delta_blk V c t j

/-- An index of the agreement array is in point t's block iff each coordinate is in the block's range on its axis. -/
theorem mem_blk3 (t : Fin cfg0.N) (i : S4096x4x50.Idx) :
    i ∈ ((cfg0.win 3).blk t).view.set ↔ ∀ a : Fin 3, win0_3.index t a * S128x4x50.size a ≤ (i a).val
      ∧ (i a).val < win0_3.index t a * S128x4x50.size a + S128x4x50.size a := by
  show i ∈ ((View.whole main_v18_1).slice (win0_3.rect t)).set ↔ _
  rw [View.set_slice_whole, Rect.mem_set_unit]
  exact Iff.rfl

/-- Every index of the agreement array is in the block of the point its batch row names: row r is in block r / 128. -/
theorem cover3 (i : S4096x4x50.Idx) :
    ∃ t : Fin cfg0.N, (cfg0.win 3).flush t = true ∧ i ∈ ((cfg0.win 3).blk t).view.set := by
  have hi0 : (i 0).val < 4096 := (i 0).isLt
  have hi1 : (i 1).val < 4 := (i 1).isLt
  have hi2 : (i 2).val < 50 := (i 2).isLt
  have hN : (i 0).val / 128 < cfg0.N := by show (i 0).val / 128 < grid0.N; rw [N_0]; omega
  obtain ⟨-, -, -, -, -, -, -, -, -, e0, e1, e2⟩ := idx_facts ⟨(i 0).val / 128, hN⟩
  have e0' : win0_3.index ⟨(i 0).val / 128, hN⟩ (0 : Fin 3) = (i 0).val / 128 := e0
  refine ⟨⟨(i 0).val / 128, hN⟩, flush0_3 _, ?_⟩
  rw [mem_blk3]
  intro a
  match a with
  | ⟨0, _⟩ =>
    show win0_3.index ⟨(i 0).val / 128, hN⟩ (0 : Fin 3) * 128 ≤ (i 0).val
      ∧ (i 0).val < win0_3.index ⟨(i 0).val / 128, hN⟩ (0 : Fin 3) * 128 + 128
    omega
  | ⟨1, _⟩ =>
    show win0_3.index ⟨(i 0).val / 128, hN⟩ (1 : Fin 3) * 4 ≤ (i 1).val
      ∧ (i 1).val < win0_3.index ⟨(i 0).val / 128, hN⟩ (1 : Fin 3) * 4 + 4
    omega
  | ⟨2, _⟩ =>
    show win0_3.index ⟨(i 0).val / 128, hN⟩ (2 : Fin 3) * 50 ≤ (i 2).val
      ∧ (i 2).val < win0_3.index ⟨(i 0).val / 128, hN⟩ (2 : Fin 3) * 50 + 50
    omega

/-- The agreement array after the region. -/
theorem delta_final (c : Dev nD) :
    (dat0 V c).arrAt 3 cfg0.N = Route.delta (n := 4096) (V c main_v0) (V c main_v17) := by
  exact (dat0 V c).arrAt_eq_of_cover 3 _ (fun t _ => flushed3_eq V c t) cover3

/-! ## The inputs -/

/-- The item array is only read. -/
theorem item_kept (c : Dev nD) : (dat0 V c).arrAt 0 cfg0.N = V c main_v0 := by
  exact ((dat0 V c).arrAt_in 0 rfl _).trans (A_eq0 V c 0)

/-- The weight array is only read. -/
theorem w_kept (c : Dev nD) : (dat0 V c).arrAt 1 cfg0.N = V c main_v17 := by
  exact ((dat0 V c).arrAt_in 1 rfl _).trans (A_eq0 V c 1)

end Cert.KernelIdeal.Region0

end
-- ==== Proof.Region1.lean ====
/-
  Region 1 (the second pallas_call), from blocks to whole arrays: whatever the TensorCore's buffers hold when
  the region is entered (`V`), it leaves the specification's capsules `Route.ic` and agreements `Route.delta` of its
  two input arrays in its two output arrays, and its input arrays as they were.

  Grid point t (of 32) works on batch rows 128·t … 128·t + 127 of every window, all other axes whole; so block t
  of an output is the 128-row function of block t of the inputs (the body's reading), which is the 4096-row
  function restricted to those rows, because `Route.ic` and `Route.delta` treat each batch row on its own; and the
  32 blocks cover the array.
-/
import proofs.«121342_j42090679501341_1_alg».proof.Proof.Gen.KernelIdeal.Frame
import proofs.«121342_j42090679501341_1_alg».proof.Proof.Payload
import Idealize.ShloMosaic.Lib.Pipeline.Value

set_option maxRecDepth 16384

noncomputable section

namespace Cert.KernelIdeal.Region1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Facts₀ Cert.KernelIdeal.Facts Cert.KernelIdeal.Gen Cert.KernelIdeal.Payload Cert.Route

variable (V : (c : Dev nD) → (b : Ref sig .tc) → Buf (Elt Ideal) ((c : Thread nD τ).loc b))

/-! ## The grid: point t holds batch rows 128·t … 128·t + 127 of every window -/

/-- The printed index maps, decided over the 32 points: block t of every window is (t, 0, 0). -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-- Batch row p of block t is row 128·t + p of the array. -/
def row (t : Fin cfg1.N) (p : Fin 128) : Fin 4096 :=
  ⟨128 * t.val + p.val, by have h : t.val < 32 := N_1 ▸ t.isLt; have := p.isLt; omega⟩

/-- The item block of point t reads the item array at its rows. -/
theorem item_blk (c : Dev nD) (t : Fin cfg1.N) (p : Fin 128) (s : Fin 50) (l : Fin 256) :
    iblk1 V c 0 t (ix3 p s l) = V c main_v0 (ix3 (row t p) s l) := by
  obtain ⟨e0, e1, e2, -⟩ := idx_facts t
  show V c main_v0 (((cfg1.win 0).blk t).view.emb (ix3 p s l)) = _
  refine congrArg _ (funext fun a => Fin.ext ?_)
  match a with
  | ⟨0, _⟩ => show win1_0.index t (0 : Fin 3) * 128 + 1 * p.val = 128 * t.val + p.val; omega
  | ⟨1, _⟩ => show win1_0.index t (1 : Fin 3) * 50 + 1 * s.val = s.val; omega
  | ⟨2, _⟩ => show win1_0.index t (2 : Fin 3) * 256 + 1 * l.val = l.val; omega

/-- The weight block of point t reads the weight array at its rows. -/
theorem w_blk (c : Dev nD) (t : Fin cfg1.N) (p : Fin 128) (k : Fin 4) (s : Fin 50) :
    iblk1 V c 1 t (ix3 p k s) = V c main_v34 (ix3 (row t p) k s) := by
  obtain ⟨-, -, -, e0, e1, e2, -⟩ := idx_facts t
  show V c main_v34 (((cfg1.win 1).blk t).view.emb (ix3 p k s)) = _
  refine congrArg _ (funext fun a => Fin.ext ?_)
  match a with
  | ⟨0, _⟩ => show win1_1.index t (0 : Fin 3) * 128 + 1 * p.val = 128 * t.val + p.val; omega
  | ⟨1, _⟩ => show win1_1.index t (1 : Fin 3) * 4 + 1 * k.val = k.val; omega
  | ⟨2, _⟩ => show win1_1.index t (2 : Fin 3) * 50 + 1 * s.val = s.val; omega

/-! ## The capsule array -/

/-- Local index (p, k, h) of point t's block of the capsule array is the array's (128·t + p, k, h). -/
theorem cap_emb (t : Fin cfg1.N) (p : Fin 128) (k : Fin 4) (h : Fin 64) :
    ((cfg1.win 2).blk t).view.emb (ix3 p k h) = ix3 (row t p) k h := by
  obtain ⟨-, -, -, -, -, -, e0, e1, e2, -⟩ := idx_facts t
  funext a
  apply Fin.ext
  match a with
  | ⟨0, _⟩ => show win1_2.index t (0 : Fin 3) * 128 + 1 * p.val = 128 * t.val + p.val; omega
  | ⟨1, _⟩ => show win1_2.index t (1 : Fin 3) * 4 + 1 * k.val = k.val; omega
  | ⟨2, _⟩ => show win1_2.index t (2 : Fin 3) * 64 + 1 * h.val = h.val; omega

/-- The products of block-local row p of point t's blocks are those of row 128·t + p of the arrays. -/
theorem prodAt_blk (c : Dev nD) (t : Fin cfg1.N) (p : Fin 128) (k : Fin 4) :
    prodAt (n := 128) (iblk1 V c 0 t) (iblk1 V c 1 t) p k = prodAt (n := 4096) (V c main_v0) (V c main_v34) (row t p) k := by
  funext s h
  exact congrArg₂ (fun a b : EReal => a * b) (w_blk V c t p k s) (item_blk V c t p s (lane k h))

/-- The 128-row capsules of point t's blocks are the 4096-row capsules at the block's place in the array. -/
theorem ic_blk (c : Dev nD) (t : Fin cfg1.N) (j : S128x4x64.Idx) :
    Route.ic (n := 128) (iblk1 V c 0 t) (iblk1 V c 1 t) j
      = Route.ic (n := 4096) (V c main_v0) (V c main_v34) (((cfg1.win 2).blk t).view.emb j) := by
  obtain ⟨p, k, h, rfl⟩ : ∃ p k h, j = ix3 p k h := ⟨j 0, j 1, j 2, eq_ix3 j⟩
  rw [cap_emb]
  show capIC (prodAt (n := 128) (iblk1 V c 0 t) (iblk1 V c 1 t) p k) h
    = capIC (prodAt (n := 4096) (V c main_v0) (V c main_v34) (row t p) k) h
  rw [prodAt_blk]

/-- What point t writes back to the capsule array is block t of the 4096-row capsules. -/
theorem flushed2_eq (c : Dev nD) (t : Fin cfg1.N) :
    (dat1 V c).flushed 2 t
      = ((cfg1.win 2).blk t).view.read (Elt Ideal) (Route.ic (n := 4096) (V c main_v0) (V c main_v34)) := by
  show (cfg1.win 2).cut (grid1.coords t) ((dat1 V c).after 2 t) = _
  rw [after1_2, out1_2_eq]
  funext j
  exact ic_blk V c t j

/-- An index of the capsule array is in point t's block iff each coordinate is in the block's range on its axis. -/
theorem mem_blk2 (t : Fin cfg1.N) (i : S4096x4x64.Idx) :
    i ∈ ((cfg1.win 2).blk t).view.set ↔ ∀ a : Fin 3, win1_2.index t a * S128x4x64.size a ≤ (i a).val
      ∧ (i a).val < win1_2.index t a * S128x4x64.size a + S128x4x64.size a := by
  show i ∈ ((View.whole main_v35_0).slice (win1_2.rect t)).set ↔ _
  rw [View.set_slice_whole, Rect.mem_set_unit]
  exact Iff.rfl

/-- Every index of the capsule array is in the block of the point its batch row names: row r is in block r / 128. -/
theorem cover2 (i : S4096x4x64.Idx) :
    ∃ t : Fin cfg1.N, (cfg1.win 2).flush t = true ∧ i ∈ ((cfg1.win 2).blk t).view.set := by
  have hi0 : (i 0).val < 4096 := (i 0).isLt
  have hi1 : (i 1).val < 4 := (i 1).isLt
  have hi2 : (i 2).val < 64 := (i 2).isLt
  have hN : (i 0).val / 128 < cfg1.N := by show (i 0).val / 128 < grid1.N; rw [N_1]; omega
  obtain ⟨-, -, -, -, -, -, e0, e1, e2, -⟩ := idx_facts ⟨(i 0).val / 128, hN⟩
  have e0' : win1_2.index ⟨(i 0).val / 128, hN⟩ (0 : Fin 3) = (i 0).val / 128 := e0
  refine ⟨⟨(i 0).val / 128, hN⟩, flush1_2 _, ?_⟩
  rw [mem_blk2]
  intro a
  match a with
  | ⟨0, _⟩ =>
    show win1_2.index ⟨(i 0).val / 128, hN⟩ (0 : Fin 3) * 128 ≤ (i 0).val
      ∧ (i 0).val < win1_2.index ⟨(i 0).val / 128, hN⟩ (0 : Fin 3) * 128 + 128
    omega
  | ⟨1, _⟩ =>
    show win1_2.index ⟨(i 0).val / 128, hN⟩ (1 : Fin 3) * 4 ≤ (i 1).val
      ∧ (i 1).val < win1_2.index ⟨(i 0).val / 128, hN⟩ (1 : Fin 3) * 4 + 4
    omega
  | ⟨2, _⟩ =>
    show win1_2.index ⟨(i 0).val / 128, hN⟩ (2 : Fin 3) * 64 ≤ (i 2).val
      ∧ (i 2).val < win1_2.index ⟨(i 0).val / 128, hN⟩ (2 : Fin 3) * 64 + 64
    omega

/-- The capsule array after the region. -/
theorem ic_final (c : Dev nD) :
    (dat1 V c).arrAt 2 cfg1.N = Route.ic (n := 4096) (V c main_v0) (V c main_v34) := by
  exact (dat1 V c).arrAt_eq_of_cover 2 _ (fun t _ => flushed2_eq V c t) cover2

/-! ## The agreement array -/

/-- Local index (p, k, s) of point t's block of the agreement array is the array's (128·t + p, k, s). -/
theorem del_emb (t : Fin cfg1.N) (p : Fin 128) (k : Fin 4) (s : Fin 50) :
    ((cfg1.win 3).blk t).view.emb (ix3 p k s) = ix3 (row t p) k s := by
  obtain ⟨-, -, -, -, -, -, -, -, -, e0, e1, e2⟩ := idx_facts t
  funext a
  apply Fin.ext
  match a with
  | ⟨0, _⟩ => show win1_3.index t (0 : Fin 3) * 128 + 1 * p.val = 128 * t.val + p.val; omega
  | ⟨1, _⟩ => show win1_3.index t (1 : Fin 3) * 4 + 1 * k.val = k.val; omega
  | ⟨2, _⟩ => show win1_3.index t (2 : Fin 3) * 50 + 1 * s.val = s.val; omega

/-- The items of capsule k in block-local row p of point t's block are those of row 128·t + p of the array. -/
theorem items_blk (c : Dev nD) (t : Fin cfg1.N) (p : Fin 128) (k : Fin 4) :
    (fun (s : Fin 50) (h : Fin 64) => (iblk1 V c 0 t (ix3 p s (lane k h)) : EReal))
      = fun s h => V c main_v0 (ix3 (row t p) s (lane k h)) :=
  funext fun s => funext fun h => item_blk V c t p s (lane k h)

/-- The 128-row agreements of point t's blocks are the 4096-row agreements at the block's place in the array. -/
theorem delta_blk (c : Dev nD) (t : Fin cfg1.N) (j : S128x4x50.Idx) :
    Route.delta (n := 128) (iblk1 V c 0 t) (iblk1 V c 1 t) j
      = Route.delta (n := 4096) (V c main_v0) (V c main_v34) (((cfg1.win 3).blk t).view.emb j) := by
  obtain ⟨p, k, s, rfl⟩ : ∃ p k s, j = ix3 p k s := ⟨j 0, j 1, j 2, eq_ix3 j⟩
  rw [del_emb]
  exact congrArg₂ (fun x ic => capD x ic s) (items_blk V c t p k) (congrArg capIC (prodAt_blk V c t p k))

/-- What point t writes back to the agreement array is block t of the 4096-row agreements. -/
theorem flushed3_eq (c : Dev nD) (t : Fin cfg1.N) :
    (dat1 V c).flushed 3 t
      = ((cfg1.win 3).blk t).view.read (Elt Ideal) (Route.delta (n := 4096) (V c main_v0) (V c main_v34)) := by
  show (cfg1.win 3).cut (grid1.coords t) ((dat1 V c).after 3 t) = _
  rw [after1_3, out1_3_eq]
  funext j
  exact delta_blk V c t j

/-- An index of the agreement array is in point t's block iff each coordinate is in the block's range on its axis. -/
theorem mem_blk3 (t : Fin cfg1.N) (i : S4096x4x50.Idx) :
    i ∈ ((cfg1.win 3).blk t).view.set ↔ ∀ a : Fin 3, win1_3.index t a * S128x4x50.size a ≤ (i a).val
      ∧ (i a).val < win1_3.index t a * S128x4x50.size a + S128x4x50.size a := by
  show i ∈ ((View.whole main_v35_1).slice (win1_3.rect t)).set ↔ _
  rw [View.set_slice_whole, Rect.mem_set_unit]
  exact Iff.rfl

/-- Every index of the agreement array is in the block of the point its batch row names: row r is in block r / 128. -/
theorem cover3 (i : S4096x4x50.Idx) :
    ∃ t : Fin cfg1.N, (cfg1.win 3).flush t = true ∧ i ∈ ((cfg1.win 3).blk t).view.set := by
  have hi0 : (i 0).val < 4096 := (i 0).isLt
  have hi1 : (i 1).val < 4 := (i 1).isLt
  have hi2 : (i 2).val < 50 := (i 2).isLt
  have hN : (i 0).val / 128 < cfg1.N := by show (i 0).val / 128 < grid1.N; rw [N_1]; omega
  obtain ⟨-, -, -, -, -, -, -, -, -, e0, e1, e2⟩ := idx_facts ⟨(i 0).val / 128, hN⟩
  have e0' : win1_3.index ⟨(i 0).val / 128, hN⟩ (0 : Fin 3) = (i 0).val / 128 := e0
  refine ⟨⟨(i 0).val / 128, hN⟩, flush1_3 _, ?_⟩
  rw [mem_blk3]
  intro a
  match a with
  | ⟨0, _⟩ =>
    show win1_3.index ⟨(i 0).val / 128, hN⟩ (0 : Fin 3) * 128 ≤ (i 0).val
      ∧ (i 0).val < win1_3.index ⟨(i 0).val / 128, hN⟩ (0 : Fin 3) * 128 + 128
    omega
  | ⟨1, _⟩ =>
    show win1_3.index ⟨(i 0).val / 128, hN⟩ (1 : Fin 3) * 4 ≤ (i 1).val
      ∧ (i 1).val < win1_3.index ⟨(i 0).val / 128, hN⟩ (1 : Fin 3) * 4 + 4
    omega
  | ⟨2, _⟩ =>
    show win1_3.index ⟨(i 0).val / 128, hN⟩ (2 : Fin 3) * 50 ≤ (i 2).val
      ∧ (i 2).val < win1_3.index ⟨(i 0).val / 128, hN⟩ (2 : Fin 3) * 50 + 50
    omega

/-- The agreement array after the region. -/
theorem delta_final (c : Dev nD) :
    (dat1 V c).arrAt 3 cfg1.N = Route.delta (n := 4096) (V c main_v0) (V c main_v34) := by
  exact (dat1 V c).arrAt_eq_of_cover 3 _ (fun t _ => flushed3_eq V c t) cover3

/-! ## The inputs -/

/-- The item array is only read. -/
theorem item_kept (c : Dev nD) : (dat1 V c).arrAt 0 cfg1.N = V c main_v0 := by
  exact ((dat1 V c).arrAt_in 0 rfl _).trans (A_eq1 V c 0)

/-- The weight array is only read. -/
theorem w_kept (c : Dev nD) : (dat1 V c).arrAt 1 cfg1.N = V c main_v34 := by
  exact ((dat1 V c).arrAt_in 1 rfl _).trans (A_eq1 V c 1)

end Cert.KernelIdeal.Region1

end
-- ==== Proof.Region2.lean ====
/-
  Region 2 (the third pallas_call), from blocks to whole arrays: whatever the TensorCore's buffers hold when
  the region is entered (`V`), it leaves the specification's capsules `Route.ic` and agreements `Route.delta` of its
  two input arrays in its two output arrays, and its input arrays as they were.

  Grid point t (of 32) works on batch rows 128·t … 128·t + 127 of every window, all other axes whole; so block t
  of an output is the 128-row function of block t of the inputs (the body's reading), which is the 4096-row
  function restricted to those rows, because `Route.ic` and `Route.delta` treat each batch row on its own; and the
  32 blocks cover the array.
-/
import proofs.«121342_j42090679501341_1_alg».proof.Proof.Gen.KernelIdeal.Frame
import proofs.«121342_j42090679501341_1_alg».proof.Proof.Payload
import Idealize.ShloMosaic.Lib.Pipeline.Value

set_option maxRecDepth 16384

noncomputable section

namespace Cert.KernelIdeal.Region2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Facts₀ Cert.KernelIdeal.Facts Cert.KernelIdeal.Gen Cert.KernelIdeal.Payload Cert.Route

variable (V : (c : Dev nD) → (b : Ref sig .tc) → Buf (Elt Ideal) ((c : Thread nD τ).loc b))

/-! ## The grid: point t holds batch rows 128·t … 128·t + 127 of every window -/

/-- The printed index maps, decided over the 32 points: block t of every window is (t, 0, 0). -/
theorem idx_facts : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 3) = t.val ∧ win2_2.index t (1 : Fin 3) = 0 ∧ win2_2.index t (2 : Fin 3) = 0
    ∧ win2_3.index t (0 : Fin 3) = t.val ∧ win2_3.index t (1 : Fin 3) = 0 ∧ win2_3.index t (2 : Fin 3) = 0 :=
  (by decide +kernel : ∀ t : Fin grid2.N, _)

/-- Batch row p of block t is row 128·t + p of the array. -/
def row (t : Fin cfg2.N) (p : Fin 128) : Fin 4096 :=
  ⟨128 * t.val + p.val, by have h : t.val < 32 := N_2 ▸ t.isLt; have := p.isLt; omega⟩

/-- The item block of point t reads the item array at its rows. -/
theorem item_blk (c : Dev nD) (t : Fin cfg2.N) (p : Fin 128) (s : Fin 50) (l : Fin 256) :
    iblk2 V c 0 t (ix3 p s l) = V c main_v0 (ix3 (row t p) s l) := by
  obtain ⟨e0, e1, e2, -⟩ := idx_facts t
  show V c main_v0 (((cfg2.win 0).blk t).view.emb (ix3 p s l)) = _
  refine congrArg _ (funext fun a => Fin.ext ?_)
  match a with
  | ⟨0, _⟩ => show win2_0.index t (0 : Fin 3) * 128 + 1 * p.val = 128 * t.val + p.val; omega
  | ⟨1, _⟩ => show win2_0.index t (1 : Fin 3) * 50 + 1 * s.val = s.val; omega
  | ⟨2, _⟩ => show win2_0.index t (2 : Fin 3) * 256 + 1 * l.val = l.val; omega

/-- The weight block of point t reads the weight array at its rows. -/
theorem w_blk (c : Dev nD) (t : Fin cfg2.N) (p : Fin 128) (k : Fin 4) (s : Fin 50) :
    iblk2 V c 1 t (ix3 p k s) = V c main_v51 (ix3 (row t p) k s) := by
  obtain ⟨-, -, -, e0, e1, e2, -⟩ := idx_facts t
  show V c main_v51 (((cfg2.win 1).blk t).view.emb (ix3 p k s)) = _
  refine congrArg _ (funext fun a => Fin.ext ?_)
  match a with
  | ⟨0, _⟩ => show win2_1.index t (0 : Fin 3) * 128 + 1 * p.val = 128 * t.val + p.val; omega
  | ⟨1, _⟩ => show win2_1.index t (1 : Fin 3) * 4 + 1 * k.val = k.val; omega
  | ⟨2, _⟩ => show win2_1.index t (2 : Fin 3) * 50 + 1 * s.val = s.val; omega

/-! ## The capsule array -/

/-- Local index (p, k, h) of point t's block of the capsule array is the array's (128·t + p, k, h). -/
theorem cap_emb (t : Fin cfg2.N) (p : Fin 128) (k : Fin 4) (h : Fin 64) :
    ((cfg2.win 2).blk t).view.emb (ix3 p k h) = ix3 (row t p) k h := by
  obtain ⟨-, -, -, -, -, -, e0, e1, e2, -⟩ := idx_facts t
  funext a
  apply Fin.ext
  match a with
  | ⟨0, _⟩ => show win2_2.index t (0 : Fin 3) * 128 + 1 * p.val = 128 * t.val + p.val; omega
  | ⟨1, _⟩ => show win2_2.index t (1 : Fin 3) * 4 + 1 * k.val = k.val; omega
  | ⟨2, _⟩ => show win2_2.index t (2 : Fin 3) * 64 + 1 * h.val = h.val; omega

/-- The products of block-local row p of point t's blocks are those of row 128·t + p of the arrays. -/
theorem prodAt_blk (c : Dev nD) (t : Fin cfg2.N) (p : Fin 128) (k : Fin 4) :
    prodAt (n := 128) (iblk2 V c 0 t) (iblk2 V c 1 t) p k = prodAt (n := 4096) (V c main_v0) (V c main_v51) (row t p) k := by
  funext s h
  exact congrArg₂ (fun a b : EReal => a * b) (w_blk V c t p k s) (item_blk V c t p s (lane k h))

/-- The 128-row capsules of point t's blocks are the 4096-row capsules at the block's place in the array. -/
theorem ic_blk (c : Dev nD) (t : Fin cfg2.N) (j : S128x4x64.Idx) :
    Route.ic (n := 128) (iblk2 V c 0 t) (iblk2 V c 1 t) j
      = Route.ic (n := 4096) (V c main_v0) (V c main_v51) (((cfg2.win 2).blk t).view.emb j) := by
  obtain ⟨p, k, h, rfl⟩ : ∃ p k h, j = ix3 p k h := ⟨j 0, j 1, j 2, eq_ix3 j⟩
  rw [cap_emb]
  show capIC (prodAt (n := 128) (iblk2 V c 0 t) (iblk2 V c 1 t) p k) h
    = capIC (prodAt (n := 4096) (V c main_v0) (V c main_v51) (row t p) k) h
  rw [prodAt_blk]

/-- What point t writes back to the capsule array is block t of the 4096-row capsules. -/
theorem flushed2_eq (c : Dev nD) (t : Fin cfg2.N) :
    (dat2 V c).flushed 2 t
      = ((cfg2.win 2).blk t).view.read (Elt Ideal) (Route.ic (n := 4096) (V c main_v0) (V c main_v51)) := by
  show (cfg2.win 2).cut (grid2.coords t) ((dat2 V c).after 2 t) = _
  rw [after2_2, out2_2_eq]
  funext j
  exact ic_blk V c t j

/-- An index of the capsule array is in point t's block iff each coordinate is in the block's range on its axis. -/
theorem mem_blk2 (t : Fin cfg2.N) (i : S4096x4x64.Idx) :
    i ∈ ((cfg2.win 2).blk t).view.set ↔ ∀ a : Fin 3, win2_2.index t a * S128x4x64.size a ≤ (i a).val
      ∧ (i a).val < win2_2.index t a * S128x4x64.size a + S128x4x64.size a := by
  show i ∈ ((View.whole main_v52_0).slice (win2_2.rect t)).set ↔ _
  rw [View.set_slice_whole, Rect.mem_set_unit]
  exact Iff.rfl

/-- Every index of the capsule array is in the block of the point its batch row names: row r is in block r / 128. -/
theorem cover2 (i : S4096x4x64.Idx) :
    ∃ t : Fin cfg2.N, (cfg2.win 2).flush t = true ∧ i ∈ ((cfg2.win 2).blk t).view.set := by
  have hi0 : (i 0).val < 4096 := (i 0).isLt
  have hi1 : (i 1).val < 4 := (i 1).isLt
  have hi2 : (i 2).val < 64 := (i 2).isLt
  have hN : (i 0).val / 128 < cfg2.N := by show (i 0).val / 128 < grid2.N; rw [N_2]; omega
  obtain ⟨-, -, -, -, -, -, e0, e1, e2, -⟩ := idx_facts ⟨(i 0).val / 128, hN⟩
  have e0' : win2_2.index ⟨(i 0).val / 128, hN⟩ (0 : Fin 3) = (i 0).val / 128 := e0
  refine ⟨⟨(i 0).val / 128, hN⟩, flush2_2 _, ?_⟩
  rw [mem_blk2]
  intro a
  match a with
  | ⟨0, _⟩ =>
    show win2_2.index ⟨(i 0).val / 128, hN⟩ (0 : Fin 3) * 128 ≤ (i 0).val
      ∧ (i 0).val < win2_2.index ⟨(i 0).val / 128, hN⟩ (0 : Fin 3) * 128 + 128
    omega
  | ⟨1, _⟩ =>
    show win2_2.index ⟨(i 0).val / 128, hN⟩ (1 : Fin 3) * 4 ≤ (i 1).val
      ∧ (i 1).val < win2_2.index ⟨(i 0).val / 128, hN⟩ (1 : Fin 3) * 4 + 4
    omega
  | ⟨2, _⟩ =>
    show win2_2.index ⟨(i 0).val / 128, hN⟩ (2 : Fin 3) * 64 ≤ (i 2).val
      ∧ (i 2).val < win2_2.index ⟨(i 0).val / 128, hN⟩ (2 : Fin 3) * 64 + 64
    omega

/-- The capsule array after the region. -/
theorem ic_final (c : Dev nD) :
    (dat2 V c).arrAt 2 cfg2.N = Route.ic (n := 4096) (V c main_v0) (V c main_v51) := by
  exact (dat2 V c).arrAt_eq_of_cover 2 _ (fun t _ => flushed2_eq V c t) cover2

/-! ## The agreement array -/

/-- Local index (p, k, s) of point t's block of the agreement array is the array's (128·t + p, k, s). -/
theorem del_emb (t : Fin cfg2.N) (p : Fin 128) (k : Fin 4) (s : Fin 50) :
    ((cfg2.win 3).blk t).view.emb (ix3 p k s) = ix3 (row t p) k s := by
  obtain ⟨-, -, -, -, -, -, -, -, -, e0, e1, e2⟩ := idx_facts t
  funext a
  apply Fin.ext
  match a with
  | ⟨0, _⟩ => show win2_3.index t (0 : Fin 3) * 128 + 1 * p.val = 128 * t.val + p.val; omega
  | ⟨1, _⟩ => show win2_3.index t (1 : Fin 3) * 4 + 1 * k.val = k.val; omega
  | ⟨2, _⟩ => show win2_3.index t (2 : Fin 3) * 50 + 1 * s.val = s.val; omega

/-- The items of capsule k in block-local row p of point t's block are those of row 128·t + p of the array. -/
theorem items_blk (c : Dev nD) (t : Fin cfg2.N) (p : Fin 128) (k : Fin 4) :
    (fun (s : Fin 50) (h : Fin 64) => (iblk2 V c 0 t (ix3 p s (lane k h)) : EReal))
      = fun s h => V c main_v0 (ix3 (row t p) s (lane k h)) :=
  funext fun s => funext fun h => item_blk V c t p s (lane k h)

/-- The 128-row agreements of point t's blocks are the 4096-row agreements at the block's place in the array. -/
theorem delta_blk (c : Dev nD) (t : Fin cfg2.N) (j : S128x4x50.Idx) :
    Route.delta (n := 128) (iblk2 V c 0 t) (iblk2 V c 1 t) j
      = Route.delta (n := 4096) (V c main_v0) (V c main_v51) (((cfg2.win 3).blk t).view.emb j) := by
  obtain ⟨p, k, s, rfl⟩ : ∃ p k s, j = ix3 p k s := ⟨j 0, j 1, j 2, eq_ix3 j⟩
  rw [del_emb]
  exact congrArg₂ (fun x ic => capD x ic s) (items_blk V c t p k) (congrArg capIC (prodAt_blk V c t p k))

/-- What point t writes back to the agreement array is block t of the 4096-row agreements. -/
theorem flushed3_eq (c : Dev nD) (t : Fin cfg2.N) :
    (dat2 V c).flushed 3 t
      = ((cfg2.win 3).blk t).view.read (Elt Ideal) (Route.delta (n := 4096) (V c main_v0) (V c main_v51)) := by
  show (cfg2.win 3).cut (grid2.coords t) ((dat2 V c).after 3 t) = _
  rw [after2_3, out2_3_eq]
  funext j
  exact delta_blk V c t j

/-- An index of the agreement array is in point t's block iff each coordinate is in the block's range on its axis. -/
theorem mem_blk3 (t : Fin cfg2.N) (i : S4096x4x50.Idx) :
    i ∈ ((cfg2.win 3).blk t).view.set ↔ ∀ a : Fin 3, win2_3.index t a * S128x4x50.size a ≤ (i a).val
      ∧ (i a).val < win2_3.index t a * S128x4x50.size a + S128x4x50.size a := by
  show i ∈ ((View.whole main_v52_1).slice (win2_3.rect t)).set ↔ _
  rw [View.set_slice_whole, Rect.mem_set_unit]
  exact Iff.rfl

/-- Every index of the agreement array is in the block of the point its batch row names: row r is in block r / 128. -/
theorem cover3 (i : S4096x4x50.Idx) :
    ∃ t : Fin cfg2.N, (cfg2.win 3).flush t = true ∧ i ∈ ((cfg2.win 3).blk t).view.set := by
  have hi0 : (i 0).val < 4096 := (i 0).isLt
  have hi1 : (i 1).val < 4 := (i 1).isLt
  have hi2 : (i 2).val < 50 := (i 2).isLt
  have hN : (i 0).val / 128 < cfg2.N := by show (i 0).val / 128 < grid2.N; rw [N_2]; omega
  obtain ⟨-, -, -, -, -, -, -, -, -, e0, e1, e2⟩ := idx_facts ⟨(i 0).val / 128, hN⟩
  have e0' : win2_3.index ⟨(i 0).val / 128, hN⟩ (0 : Fin 3) = (i 0).val / 128 := e0
  refine ⟨⟨(i 0).val / 128, hN⟩, flush2_3 _, ?_⟩
  rw [mem_blk3]
  intro a
  match a with
  | ⟨0, _⟩ =>
    show win2_3.index ⟨(i 0).val / 128, hN⟩ (0 : Fin 3) * 128 ≤ (i 0).val
      ∧ (i 0).val < win2_3.index ⟨(i 0).val / 128, hN⟩ (0 : Fin 3) * 128 + 128
    omega
  | ⟨1, _⟩ =>
    show win2_3.index ⟨(i 0).val / 128, hN⟩ (1 : Fin 3) * 4 ≤ (i 1).val
      ∧ (i 1).val < win2_3.index ⟨(i 0).val / 128, hN⟩ (1 : Fin 3) * 4 + 4
    omega
  | ⟨2, _⟩ =>
    show win2_3.index ⟨(i 0).val / 128, hN⟩ (2 : Fin 3) * 50 ≤ (i 2).val
      ∧ (i 2).val < win2_3.index ⟨(i 0).val / 128, hN⟩ (2 : Fin 3) * 50 + 50
    omega

/-- The agreement array after the region. -/
theorem delta_final (c : Dev nD) :
    (dat2 V c).arrAt 3 cfg2.N = Route.delta (n := 4096) (V c main_v0) (V c main_v51) := by
  exact (dat2 V c).arrAt_eq_of_cover 3 _ (fun t _ => flushed3_eq V c t) cover3

/-! ## The inputs -/

/-- The item array is only read. -/
theorem item_kept (c : Dev nD) : (dat2 V c).arrAt 0 cfg2.N = V c main_v0 := by
  exact ((dat2 V c).arrAt_in 0 rfl _).trans (A_eq2 V c 0)

/-- The weight array is only read. -/
theorem w_kept (c : Dev nD) : (dat2 V c).arrAt 1 cfg2.N = V c main_v51 := by
  exact ((dat2 V c).arrAt_in 1 rfl _).trans (A_eq2 V c 1)

end Cert.KernelIdeal.Region2

end
-- ==== Proof.HostK.lean ====
/-
  The kernel program's host operations between its three pallas_calls, read in stages.

  Before the first call the host merges the items' (capsule, hidden) axes (`relay`), repeats the mask for the four
  capsules (`bmask`) and makes the first weights from the logits by the masked softmax over the batch (`msm`).
  After each of the first two calls it adds the call's agreements to the logits and makes the next weights from
  the sum, by the same operations. Each stretch is read from an ARBITRARY valuation of the buffers, so that a
  stretch's reading never mentions how the buffers it reads were made.
-/
import proofs.«121342_j42090679501341_1_alg».proof.Proof.Gen.KernelIdeal.Launch
import Idealize.ShloMosaic.Lib.StableHlo.Run

noncomputable section

namespace Cert.KernelIdeal.Host

open Cert.KernelIdeal Cert.KernelIdeal.Facts₀ Cert.KernelIdeal.Facts
open Idealize.ShloMosaic Idealize.ShloMosaic.TcCoe Idealize.SL.Sem Idealize.ShloMosaic.StableHlo
open Cert.KernelIdeal.Gen (hostOps0 hostOps0_1 hostOps1 hostOps1_1 hostOps2 hostOps2_1)

variable {F : FTy → Type} [FloatOps F]

/-! ## The stages -/

/-- The items with (capsule, hidden) merged into 256 lanes. -/
def relay (x1 : (⟨S4096x50x4x64, .f32⟩ : BufTy).Contents (Elt F)) : (⟨S4096x50x256, .f32⟩ : BufTy).Contents (Elt F) :=
  shapeCast S4096x50x256 x1 shapeCasts_S4096x50x4x64_S4096x50x256

/-- The mask, 4096 × 50, repeated for the four capsules. -/
def bmask (x0 : (⟨S4096x50, .i32⟩ : BufTy).Contents (Elt F)) : (⟨S4096x4x50, .i32⟩ : BufTy).Contents (Elt F) :=
  broadcastInDim S4096x4x50 ![0, 1, 2] bcast_S4096x1x50_S4096x4x50_0_1_2 (broadcastInDim S4096x1x50 ![0, 2] bcast_S4096x50_S4096x1x50_0_2 x0)

/-- A 4 × 50 table repeated over the batch. -/
def spread (r : (⟨S4x50, .f32⟩ : BufTy).Contents (Elt F)) : (⟨S4096x4x50, .f32⟩ : BufTy).Contents (Elt F) :=
  broadcastInDim S4096x4x50 ![0, 1, 2] bcast_S1x4x50_S4096x4x50_0_1_2 (broadcastInDim S1x4x50 ![1, 2] bcast_S4x50_S1x4x50_1_2 r)

/-- The maximum of the logits over the batch, per (capsule, item). -/
def colMax (cw : (⟨S4096x4x50, .f32⟩ : BufTy).Contents (Elt F)) : (⟨S4x50, .f32⟩ : BufTy).Contents (Elt F) :=
  maximumf (broadcastInDim S4x50 ![] bcast_S_S4x50 (constant S_ .f32 0xFF800000#32))
    (Host.reduce FloatOps.maximumf cw (constant S_ .f32 0xFF800000#32) reducesTo_S4096x4x50_S4x50_d0 h_S_)

/-- exp (cw − max). -/
def expShift (cw : (⟨S4096x4x50, .f32⟩ : BufTy).Contents (Elt F)) : (⟨S4096x4x50, .f32⟩ : BufTy).Contents (Elt F) :=
  Host.exp (subf cw (spread (colMax cw)))

/-- The softmax over the batch axis. -/
def softmax0 (cw : (⟨S4096x4x50, .f32⟩ : BufTy).Contents (Elt F)) : (⟨S4096x4x50, .f32⟩ : BufTy).Contents (Elt F) :=
  Host.divf (expShift cw) (spread (Host.reduceAdd (expShift cw) (constant S_ .f32 0x00000000#32) reducesTo_S4096x4x50_S4x50_d0 h_S_))

/-- The weights: the softmax, zero where the mask is zero. -/
def msm (bm : (⟨S4096x4x50, .i32⟩ : BufTy).Contents (Elt F)) (cw : (⟨S4096x4x50, .f32⟩ : BufTy).Contents (Elt F)) :
    (⟨S4096x4x50, .f32⟩ : BufTy).Contents (Elt F) :=
  select (cmpi .eq bm (broadcastInDim S4096x4x50 ![] bcast_S_S4096x4x50 (constantI S_ 32 0#32)))
    (broadcastInDim S4096x4x50 ![] bcast_S_S4096x4x50 (constant S_ .f32 0x00000000#32)) (softmax0 cw)

/-! ## The stretches, each from any contents `W` -/

section Stretches
variable (W : Valuation τ sig (Elt F))

/-- Before the first call: the merged items, … -/
theorem pre0_v0 : after hostOps0_1 (after hostOps0 W) (Proc.devRef .tc main_v0) = relay (W (Proc.devRef .tc main_arg1)) := by
  after_results_simp <;> rfl
/-- … the repeated mask, … -/
theorem pre0_v2 : after hostOps0_1 (after hostOps0 W) (Proc.devRef .tc main_v2) = bmask (W (Proc.devRef .tc main_arg0)) := by
  after_results_simp <;> rfl
/-- … the first weights, … -/
theorem pre0_v17 : after hostOps0_1 (after hostOps0 W) (Proc.devRef .tc main_v17)
    = msm (bmask (W (Proc.devRef .tc main_arg0))) (W (Proc.devRef .tc main_arg2)) := by
  after_results_simp <;> rfl
/-- … and the logits untouched. -/
theorem pre0_arg2 : after hostOps0_1 (after hostOps0 W) (Proc.devRef .tc main_arg2) = W (Proc.devRef .tc main_arg2) := by
  after_results_simp <;> rfl

/-- Between the first and the second call: the logits plus the first agreements, … -/
theorem pre1_v19 : after hostOps1_1 (after hostOps1 W) (Proc.devRef .tc main_v19)
    = addf (W (Proc.devRef .tc main_arg2)) (W (Proc.devRef .tc main_v18_1)) := by
  after_results_simp <;> rfl
/-- … the second weights from them, … -/
theorem pre1_v34 : after hostOps1_1 (after hostOps1 W) (Proc.devRef .tc main_v34)
    = msm (W (Proc.devRef .tc main_v2)) (addf (W (Proc.devRef .tc main_arg2)) (W (Proc.devRef .tc main_v18_1))) := by
  after_results_simp <;> rfl
/-- … the items and the mask untouched. -/
theorem pre1_v0 : after hostOps1_1 (after hostOps1 W) (Proc.devRef .tc main_v0) = W (Proc.devRef .tc main_v0) := by
  after_results_simp <;> rfl
theorem pre1_v2 : after hostOps1_1 (after hostOps1 W) (Proc.devRef .tc main_v2) = W (Proc.devRef .tc main_v2) := by
  after_results_simp <;> rfl

/-- Between the second and the third call: the third weights, from the logits plus the second agreements, … -/
theorem pre2_v51 : after hostOps2_1 (after hostOps2 W) (Proc.devRef .tc main_v51)
    = msm (W (Proc.devRef .tc main_v2)) (addf (W (Proc.devRef .tc main_v19)) (W (Proc.devRef .tc main_v35_1))) := by
  after_results_simp <;> rfl
/-- … the items untouched. -/
theorem pre2_v0 : after hostOps2_1 (after hostOps2 W) (Proc.devRef .tc main_v0) = W (Proc.devRef .tc main_v0) := by
  after_results_simp <;> rfl

end Stretches

end Cert.KernelIdeal.Host

end
-- ==== Proof.KernelValue.lean ====
/-
  The kernel program's result as the specification: boundary by boundary through @main.

  Write X for the merged items, BM for the repeated mask, sm = msm BM for the masked softmax, cw for the logits.
  Region 0 is entered with the items X and the weights sm cw and leaves the agreements delta X (sm cw); the host
  adds them to the logits, cw₁ = cw + delta X (sm cw), and makes the weights sm cw₁; region 1 leaves
  delta X (sm cw₁), the host makes cw₂ = cw₁ + delta X (sm cw₁) and the weights sm cw₂; region 2 leaves the capsules
  ic X (sm cw₂) in the result buffer. That is `Route.routed sm X cw`.
-/
import proofs.«121342_j42090679501341_1_alg».proof.Proof.Gen.KernelIdeal.Frame
import proofs.«121342_j42090679501341_1_alg».proof.Proof.Region0
import proofs.«121342_j42090679501341_1_alg».proof.Proof.Region1
import proofs.«121342_j42090679501341_1_alg».proof.Proof.Region2
import proofs.«121342_j42090679501341_1_alg».proof.Proof.HostK

set_option maxRecDepth 16384

noncomputable section

namespace Cert.KernelIdeal.Walk

open Idealize.ShloMosaic Idealize.ShloMosaic.TcCoe Idealize.ShloMosaic.ValueIdx
open Idealize.SL Idealize.SL.Sem
open Cert.KernelIdeal Cert.KernelIdeal.Gen Cert.KernelIdeal.Host Cert.Route

variable (m : (ℓ : Loc nD τ sig) → Buf (Elt Ideal) ℓ) (ρ : Dev nD → PrngReg)

/-- The merged items of core c's launch memory. -/
abbrev X (c : Dev nD) : (⟨S4096x50x256, .f32⟩ : BufTy).Contents (Elt Ideal) := relay (m ((c : Thread nD τ).loc main_arg1))
/-- The repeated mask. -/
abbrev BM (c : Dev nD) : (⟨S4096x4x50, .i32⟩ : BufTy).Contents (Elt Ideal) := bmask (m ((c : Thread nD τ).loc main_arg0))
/-- The launch logits. -/
abbrev CW (c : Dev nD) : (⟨S4096x4x50, .f32⟩ : BufTy).Contents (Elt Ideal) := m ((c : Thread nD τ).loc main_arg2)

/-! ## Region 0's entry -/

theorem e0_v0 (c : Dev nD) : V2 m ρ c main_v0 = X m c := pre0_v0 (W0 m ρ c)
theorem e0_v2 (c : Dev nD) : V2 m ρ c main_v2 = BM m c := pre0_v2 (W0 m ρ c)
theorem e0_v17 (c : Dev nD) : V2 m ρ c main_v17 = msm (BM m c) (CW m c) := pre0_v17 (W0 m ρ c)
theorem e0_arg2 (c : Dev nD) : V2 m ρ c main_arg2 = CW m c := pre0_arg2 (W0 m ρ c)

/-! ## Region 0's exit -/

theorem x0_v18_1 (c : Dev nD) : V3 m ρ c main_v18_1 = Route.delta (n := 4096) (X m c) (msm (BM m c) (CW m c)) := by
  refine (W3_arr m ρ c 3).trans ?_
  rw [Region0.delta_final (V2 m ρ) c, e0_v0, e0_v17]
theorem x0_v0 (c : Dev nD) : V3 m ρ c main_v0 = X m c := by
  refine (W3_arr m ρ c 0).trans ?_
  rw [Region0.item_kept (V2 m ρ) c, e0_v0]
theorem x0_v2 (c : Dev nD) : V3 m ρ c main_v2 = BM m c :=
  (W3_of_ne m ρ c main_v2 (by decide)).trans (e0_v2 m ρ c)
theorem x0_arg2 (c : Dev nD) : V3 m ρ c main_arg2 = CW m c :=
  (W3_of_ne m ρ c main_arg2 (by decide)).trans (e0_arg2 m ρ c)

/-! ## Region 1's entry -/

/-- The logits after the first iteration. -/
abbrev CW1 (c : Dev nD) : (⟨S4096x4x50, .f32⟩ : BufTy).Contents (Elt Ideal) :=
  Route.step (n := 4096) (msm (BM m c)) (X m c) (CW m c)

/-- A host sum of logits and agreements is the specification's step. -/
theorem addf_step (bm : (⟨S4096x4x50, .i32⟩ : BufTy).Contents (Elt Ideal)) (x : (⟨S4096x50x256, .f32⟩ : BufTy).Contents (Elt Ideal))
    (cw : (⟨S4096x4x50, .f32⟩ : BufTy).Contents (Elt Ideal)) :
    addf (F := Ideal) (s := S4096x4x50) (φ := .f32) cw (Route.delta (n := 4096) x (msm bm cw))
      = Route.step (n := 4096) (msm bm) x cw := rfl

theorem e1_v0 (c : Dev nD) : V5 m ρ c main_v0 = X m c := (pre1_v0 (W3 m ρ c)).trans (x0_v0 m ρ c)
theorem e1_v2 (c : Dev nD) : V5 m ρ c main_v2 = BM m c := (pre1_v2 (W3 m ρ c)).trans (x0_v2 m ρ c)
theorem e1_v19 (c : Dev nD) : V5 m ρ c main_v19 = CW1 m c := by
  refine (pre1_v19 (W3 m ρ c)).trans ?_
  rw [show W3 m ρ c (Proc.devRef .tc main_arg2) = CW m c from x0_arg2 m ρ c,
    show W3 m ρ c (Proc.devRef .tc main_v18_1) = _ from x0_v18_1 m ρ c]
  exact addf_step (BM m c) (X m c) (CW m c)
theorem e1_v34 (c : Dev nD) : V5 m ρ c main_v34 = msm (BM m c) (CW1 m c) := by
  refine (pre1_v34 (W3 m ρ c)).trans ?_
  rw [show W3 m ρ c (Proc.devRef .tc main_v2) = BM m c from x0_v2 m ρ c,
    show W3 m ρ c (Proc.devRef .tc main_arg2) = CW m c from x0_arg2 m ρ c,
    show W3 m ρ c (Proc.devRef .tc main_v18_1) = _ from x0_v18_1 m ρ c]
  exact congrArg (msm (BM m c)) (addf_step (BM m c) (X m c) (CW m c))

/-! ## Region 1's exit -/

theorem x1_v35_1 (c : Dev nD) : V6 m ρ c main_v35_1 = Route.delta (n := 4096) (X m c) (msm (BM m c) (CW1 m c)) := by
  refine (W6_arr m ρ c 3).trans ?_
  rw [Region1.delta_final (V5 m ρ) c, e1_v0, e1_v34]
theorem x1_v0 (c : Dev nD) : V6 m ρ c main_v0 = X m c := by
  refine (W6_arr m ρ c 0).trans ?_
  rw [Region1.item_kept (V5 m ρ) c, e1_v0]
theorem x1_v2 (c : Dev nD) : V6 m ρ c main_v2 = BM m c :=
  (W6_of_ne m ρ c main_v2 (by decide)).trans (e1_v2 m ρ c)
theorem x1_v19 (c : Dev nD) : V6 m ρ c main_v19 = CW1 m c :=
  (W6_of_ne m ρ c main_v19 (by decide)).trans (e1_v19 m ρ c)

/-! ## Region 2's entry -/

/-- The logits after the second iteration. -/
abbrev CW2 (c : Dev nD) : (⟨S4096x4x50, .f32⟩ : BufTy).Contents (Elt Ideal) :=
  Route.step (n := 4096) (msm (BM m c)) (X m c) (CW1 m c)

theorem e2_v0 (c : Dev nD) : V8 m ρ c main_v0 = X m c := (pre2_v0 (W6 m ρ c)).trans (x1_v0 m ρ c)
theorem e2_v51 (c : Dev nD) : V8 m ρ c main_v51 = msm (BM m c) (CW2 m c) := by
  refine (pre2_v51 (W6 m ρ c)).trans ?_
  rw [show W6 m ρ c (Proc.devRef .tc main_v2) = BM m c from x1_v2 m ρ c,
    show W6 m ρ c (Proc.devRef .tc main_v19) = CW1 m c from x1_v19 m ρ c,
    show W6 m ρ c (Proc.devRef .tc main_v35_1) = _ from x1_v35_1 m ρ c]
  exact congrArg (msm (BM m c)) (addf_step (BM m c) (X m c) (CW1 m c))

/-! ## The result -/

/-- THE KERNEL PROGRAM IS THE SPECIFICATION: the result buffer after region 2. -/
theorem result (c : Dev nD) :
    W9 m ρ c (Proc.devRef .tc main_v52_0) = Route.routed (n := 4096) (msm (BM m c)) (X m c) (CW m c) := by
  refine (W9_arr m ρ c 2).trans ?_
  rw [Region2.ic_final (V8 m ρ) c, e2_v0, e2_v51]
  rfl

end Cert.KernelIdeal.Walk

end
-- ==== Proof.RefStages.lean ====
/-
  The reference program, read in stages.

  The reference is three routing iterations over the transposed items. One iteration, from the broadcast mask
  `bm`, the transposed items `xt` (4096 × 4 × 50 × 64) and the logits `cw`, makes the weights by the masked
  softmax over the batch (`msm`), the capsules `icR` (a batched product of weights and items, squashed) and the
  updated logits `stepR` (the logits plus a batched product of items and capsules). The result is the third
  iteration's capsules, from logits updated twice: `resultR`.

  The program's operation list is cut at the ends of the first and second iteration; each part is read from an
  ARBITRARY valuation of the buffers, so that an iteration's reading never mentions how its logits were made.
-/
import proofs.«121342_j42090679501341_1_alg».proof.Proof.RefOps
import Idealize.ShloMosaic.Lib.StableHlo.Run

noncomputable section

namespace Cert.ReferenceIdeal.Stages

open Cert.ReferenceIdeal Cert.ReferenceIdeal.Facts₀ Cert.ReferenceIdeal.Facts
open Idealize.ShloMosaic Idealize.ShloMosaic.TcCoe Idealize.SL.Sem Idealize.ShloMosaic.StableHlo
open Cert.ReferenceIdeal.ValueP

variable [Facts]
variable {F : FTy → Type} [FloatOps F]

/-! ## The stages -/

/-- The mask, 4096 × 50, repeated for the four capsules. -/
def bmask (x0 : (⟨S4096x50, .i32⟩ : BufTy).Contents (Elt F)) : (⟨S4096x4x50, .i32⟩ : BufTy).Contents (Elt F) :=
  broadcastInDim S4096x4x50 ![0, 1, 2] bcast_S4096x1x50_S4096x4x50_0_1_2 (broadcastInDim S4096x1x50 ![0, 2] bcast_S4096x50_S4096x1x50_0_2 x0)

/-- A 4 × 50 table repeated over the batch. -/
def spread (r : (⟨S4x50, .f32⟩ : BufTy).Contents (Elt F)) : (⟨S4096x4x50, .f32⟩ : BufTy).Contents (Elt F) :=
  broadcastInDim S4096x4x50 ![0, 1, 2] bcast_S1x4x50_S4096x4x50_0_1_2 (broadcastInDim S1x4x50 ![1, 2] bcast_S4x50_S1x4x50_1_2 r)

/-- The maximum of the logits over the batch, per (capsule, item). -/
def colMax (cw : (⟨S4096x4x50, .f32⟩ : BufTy).Contents (Elt F)) : (⟨S4x50, .f32⟩ : BufTy).Contents (Elt F) :=
  maximumf (broadcastInDim S4x50 ![] bcast_S_S4x50 (constant S_ .f32 0xFF800000#32))
    (Host.reduce FloatOps.maximumf cw (constant S_ .f32 0xFF800000#32) reducesTo_S4096x4x50_S4x50_d0 h_S_)

/-- exp (cw − max). -/
def expShift (cw : (⟨S4096x4x50, .f32⟩ : BufTy).Contents (Elt F)) : (⟨S4096x4x50, .f32⟩ : BufTy).Contents (Elt F) :=
  Host.exp (subf cw (spread (colMax cw)))

/-- The softmax over the batch axis. -/
def softmax0 (cw : (⟨S4096x4x50, .f32⟩ : BufTy).Contents (Elt F)) : (⟨S4096x4x50, .f32⟩ : BufTy).Contents (Elt F) :=
  Host.divf (expShift cw) (spread (Host.reduceAdd (expShift cw) (constant S_ .f32 0x00000000#32) reducesTo_S4096x4x50_S4x50_d0 h_S_))

/-- The weights: the softmax, zero where the mask is zero. -/
def msm (bm : (⟨S4096x4x50, .i32⟩ : BufTy).Contents (Elt F)) (cw : (⟨S4096x4x50, .f32⟩ : BufTy).Contents (Elt F)) :
    (⟨S4096x4x50, .f32⟩ : BufTy).Contents (Elt F) :=
  select (cmpi .eq bm (broadcastInDim S4096x4x50 ![] bcast_S_S4096x4x50 (constantI S_ 32 0#32)))
    (broadcastInDim S4096x4x50 ![] bcast_S_S4096x4x50 (constant S_ .f32 0x00000000#32)) (softmax0 cw)

/-- The items with the capsule axis before the item axis. -/
def itemT (x1 : (⟨S4096x50x4x64, .f32⟩ : BufTy).Contents (Elt F)) : (⟨S4096x4x50x64, .f32⟩ : BufTy).Contents (Elt F) :=
  transpose S4096x4x50x64 [0, 2, 1, 3] x1 transposes_S4096x50x4x64_S4096x4x50x64_0_2_1_3

/-- v: weights (as 1 × 50 rows) times items, batched over (row, capsule). -/
def vR (w : (⟨S4096x4x50, .f32⟩ : BufTy).Contents (Elt F)) (xt : (⟨S4096x4x50x64, .f32⟩ : BufTy).Contents (Elt F)) :
    (⟨S4096x4x1x64, .f32⟩ : BufTy).Contents (Elt F) :=
  Host.dotGeneral dot_S4096x4x1x50_S4096x4x50x64_S4096x4x1x64_3_2_2_3_01_01 none
    (broadcastInDim S4096x4x1x50 ![0, 1, 3] bcast_S4096x4x50_S4096x4x1x50_0_1_3 w) xt

/-- The squared norm of v over the hidden axis, keeping the axis. -/
def normR (v : (⟨S4096x4x1x64, .f32⟩ : BufTy).Contents (Elt F)) : (⟨S4096x4x1x1, .f32⟩ : BufTy).Contents (Elt F) :=
  broadcastInDim S4096x4x1x1 ![0, 1, 2] bcast_S4096x4x1_S4096x4x1x1_0_1_2
    (Host.reduceAdd (mulf v v) (constant S_ .f32 0x00000000#32) reducesTo_S4096x4x1x64_S4096x4x1_d3 h_S_)

/-- The squash factor (n / (1 + n)) / sqrt (n + ε). -/
def scaleR (n : (⟨S4096x4x1x1, .f32⟩ : BufTy).Contents (Elt F)) : (⟨S4096x4x1x1, .f32⟩ : BufTy).Contents (Elt F) :=
  Host.divf (Host.divf n (addf (broadcastInDim S4096x4x1x1 ![] bcast_S_S4096x4x1x1 (constant S_ .f32 0x3F800000#32)) n))
    (Host.sqrt (addf n (broadcastInDim S4096x4x1x1 ![] bcast_S_S4096x4x1x1 (constant S_ .f32 0x3089705F#32))))

/-- The capsules of one iteration. -/
def icR (w : (⟨S4096x4x50, .f32⟩ : BufTy).Contents (Elt F)) (xt : (⟨S4096x4x50x64, .f32⟩ : BufTy).Contents (Elt F)) :
    (⟨S4096x4x1x64, .f32⟩ : BufTy).Contents (Elt F) :=
  mulf (broadcastInDim S4096x4x1x64 ![0, 1, 2, 3] bcast_S4096x4x1x1_S4096x4x1x64_0_1_2_3 (scaleR (normR (vR w xt)))) (vR w xt)

/-- The agreements of one iteration: items times capsules, batched over (row, capsule). -/
def deltaR (w : (⟨S4096x4x50, .f32⟩ : BufTy).Contents (Elt F)) (xt : (⟨S4096x4x50x64, .f32⟩ : BufTy).Contents (Elt F)) :
    (⟨S4096x4x50, .f32⟩ : BufTy).Contents (Elt F) :=
  shapeCast S4096x4x50
    (Host.dotGeneral dot_S4096x4x50x64_S4096x4x64x1_S4096x4x50x1_3_2_2_3_01_01 none xt
      (transpose S4096x4x64x1 [0, 1, 3, 2] (icR w xt) transposes_S4096x4x1x64_S4096x4x64x1_0_1_3_2))
    shapeCasts_S4096x4x50x1_S4096x4x50

/-- One iteration on the logits. -/
def stepR (bm : (⟨S4096x4x50, .i32⟩ : BufTy).Contents (Elt F)) (xt : (⟨S4096x4x50x64, .f32⟩ : BufTy).Contents (Elt F))
    (cw : (⟨S4096x4x50, .f32⟩ : BufTy).Contents (Elt F)) : (⟨S4096x4x50, .f32⟩ : BufTy).Contents (Elt F) :=
  addf cw (deltaR (msm bm cw) xt)

/-- The last iteration's capsules, as the 4096 × 4 × 64 result. -/
def lastR (bm : (⟨S4096x4x50, .i32⟩ : BufTy).Contents (Elt F)) (xt : (⟨S4096x4x50x64, .f32⟩ : BufTy).Contents (Elt F))
    (cw : (⟨S4096x4x50, .f32⟩ : BufTy).Contents (Elt F)) : (⟨S4096x4x64, .f32⟩ : BufTy).Contents (Elt F) :=
  shapeCast S4096x4x64 (icR (msm bm cw) xt) shapeCasts_S4096x4x1x64_S4096x4x64

/-- The reference's result as a function of its three arguments. -/
def resultR (x0 : (⟨S4096x50, .i32⟩ : BufTy).Contents (Elt F)) (x1 : (⟨S4096x50x4x64, .f32⟩ : BufTy).Contents (Elt F))
    (x2 : (⟨S4096x4x50, .f32⟩ : BufTy).Contents (Elt F)) : (⟨S4096x4x64, .f32⟩ : BufTy).Contents (Elt F) :=
  lastR (bmask x0) (itemT x1) (stepR (bmask x0) (itemT x1) (stepR (bmask x0) (itemT x1) x2))

/-! ## The run, part by part -/

theorem after_append (l₁ l₂ : List (HloOp τ sig (Elt F))) (W : Valuation τ sig (Elt F)) :
    after (l₁ ++ l₂) W = after l₂ (after l₁ W) := by
  induction l₁ generalizing W with
  | nil => rfl
  | cons op l ih => simp only [List.cons_append, after_cons, ih]

section Parts
variable (W : Valuation τ sig (Elt F))

set_option maxRecDepth 8192 in
set_option maxHeartbeats 4000000 in
/-- The first iteration, from any contents: the updated logits. -/
theorem A_v35 : after opsA W (Proc.devRef .tc main_v35)
    = stepR (bmask (W (Proc.devRef .tc main_arg0))) (itemT (W (Proc.devRef .tc main_arg1))) (W (Proc.devRef .tc main_arg2)) := by
  after_results_simp <;> rfl

set_option maxRecDepth 8192 in
theorem A_v0 : after opsA W (Proc.devRef .tc main_v0) = itemT (W (Proc.devRef .tc main_arg1)) := by
  after_results_simp <;> rfl

set_option maxRecDepth 8192 in
theorem A_v2 : after opsA W (Proc.devRef .tc main_v2) = bmask (W (Proc.devRef .tc main_arg0)) := by
  after_results_simp <;> rfl

set_option maxRecDepth 8192 in
theorem A_arg0 : after opsA W (Proc.devRef .tc main_arg0) = W (Proc.devRef .tc main_arg0) := by
  after_results_simp <;> rfl
set_option maxRecDepth 8192 in
theorem A_arg1 : after opsA W (Proc.devRef .tc main_arg1) = W (Proc.devRef .tc main_arg1) := by
  after_results_simp <;> rfl
set_option maxRecDepth 8192 in
theorem A_arg2 : after opsA W (Proc.devRef .tc main_arg2) = W (Proc.devRef .tc main_arg2) := by
  after_results_simp <;> rfl

set_option maxRecDepth 8192 in
set_option maxHeartbeats 4000000 in
/-- The second iteration, from any contents: the logits of the first, the mask and the items as they lie. -/
theorem B_v68 : after opsB W (Proc.devRef .tc main_v68)
    = stepR (W (Proc.devRef .tc main_v2)) (W (Proc.devRef .tc main_v0)) (W (Proc.devRef .tc main_v35)) := by
  after_results_simp <;> rfl

set_option maxRecDepth 8192 in
theorem B_v0 : after opsB W (Proc.devRef .tc main_v0) = W (Proc.devRef .tc main_v0) := by
  after_results_simp <;> rfl
set_option maxRecDepth 8192 in
theorem B_v2 : after opsB W (Proc.devRef .tc main_v2) = W (Proc.devRef .tc main_v2) := by
  after_results_simp <;> rfl
set_option maxRecDepth 8192 in
theorem B_arg0 : after opsB W (Proc.devRef .tc main_arg0) = W (Proc.devRef .tc main_arg0) := by
  after_results_simp <;> rfl
set_option maxRecDepth 8192 in
theorem B_arg1 : after opsB W (Proc.devRef .tc main_arg1) = W (Proc.devRef .tc main_arg1) := by
  after_results_simp <;> rfl
set_option maxRecDepth 8192 in
theorem B_arg2 : after opsB W (Proc.devRef .tc main_arg2) = W (Proc.devRef .tc main_arg2) := by
  after_results_simp <;> rfl

set_option maxRecDepth 8192 in
set_option maxHeartbeats 4000000 in
/-- The third iteration, from any contents: its capsules, re-laid as the result. -/
theorem C_v98 : after opsC W (Proc.devRef .tc main_v98)
    = lastR (W (Proc.devRef .tc main_v2)) (W (Proc.devRef .tc main_v0)) (W (Proc.devRef .tc main_v68)) := by
  after_results_simp <;> rfl

set_option maxRecDepth 8192 in
theorem C_arg0 : after opsC W (Proc.devRef .tc main_arg0) = W (Proc.devRef .tc main_arg0) := by
  after_results_simp <;> rfl
set_option maxRecDepth 8192 in
theorem C_arg1 : after opsC W (Proc.devRef .tc main_arg1) = W (Proc.devRef .tc main_arg1) := by
  after_results_simp <;> rfl
set_option maxRecDepth 8192 in
theorem C_arg2 : after opsC W (Proc.devRef .tc main_arg2) = W (Proc.devRef .tc main_arg2) := by
  after_results_simp <;> rfl

/-- The whole list: the result buffer holds `resultR` of the three arguments as they lie at the start. -/
theorem all_v98 : after ops W (Proc.devRef .tc main_v98)
    = resultR (W (Proc.devRef .tc main_arg0)) (W (Proc.devRef .tc main_arg1)) (W (Proc.devRef .tc main_arg2)) := by
  rw [ops_cut, after_append, after_append, C_v98, B_v68, B_v2, B_v0, A_v35, A_v2, A_v0]
  rfl

theorem all_arg0 : after ops W (Proc.devRef .tc main_arg0) = W (Proc.devRef .tc main_arg0) := by
  rw [ops_cut, after_append, after_append, C_arg0, B_arg0, A_arg0]
theorem all_arg1 : after ops W (Proc.devRef .tc main_arg1) = W (Proc.devRef .tc main_arg1) := by
  rw [ops_cut, after_append, after_append, C_arg1, B_arg1, A_arg1]
theorem all_arg2 : after ops W (Proc.devRef .tc main_arg2) = W (Proc.devRef .tc main_arg2) := by
  rw [ops_cut, after_append, after_append, C_arg2, B_arg2, A_arg2]

end Parts

/-! ## The run -/

/-- On every device, from any memory with zero counters: every weakly fair execution of the reference terminates
    with the result buffer at `resultR` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v98)
          = resultR (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v98).trans (all_v98 _),
      (h c main_arg0).trans (all_arg0 _),
      (h c main_arg1).trans (all_arg1 _),
      (h c main_arg2).trans (all_arg2 _)⟩)
    (run_seq scopedRefs_eq scopedSems_eq defs main (fun _ => ops) main_eq (fun _ => ops_sub) m ρ)

end Cert.ReferenceIdeal.Stages

end
-- ==== Proof.RefRead.lean ====
/-
  The reference's stages at an index, on the extended reals, and the reference's result as the specification.

  With the items transposed, `xt[b,k,s,h] = x1[b,s,k,h]`, one iteration's capsules are, for batch row b and capsule k,
  the specification's `capIC` of the products w[b,k,s] · xt[b,k,s,h] (a batched product with one contracted axis is a
  plain sum over it; the sum of squares starts from the literal zero), and its agreements the specification's
  `capD`. The kernel sees the same items with (capsule, hidden) merged into 256 lanes, `x[b,s,64k+h] = x1[b,s,k,h]`:
  under that reading of the items the reference's result is `Route.routed`.
-/
import proofs.«121342_j42090679501341_1_alg».proof.Proof.RefStages
import proofs.«121342_j42090679501341_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.ReadStages

open Cert.ReferenceIdeal Cert.ReferenceIdeal.Facts₀ Cert.ReferenceIdeal.Facts Cert.ReferenceIdeal.Stages
open Idealize.ShloMosaic Idealize.ShloMosaic.TcCoe Idealize.ShloMosaic.ValueIdx Cert.Route

variable [Facts]

/-- The transposed items. -/
theorem itemT_apply (x1 : (⟨S4096x50x4x64, .f32⟩ : BufTy).Contents (Elt Ideal)) (b : Fin 4096) (k : Fin 4) (s : Fin 50) (h : Fin 64) :
    itemT x1 (ix4 b k s h) = x1 (ix4 b s k h) := by
  unfold itemT
  exact transpose_apply [0, 2, 1, 3] x1 transposes_S4096x50x4x64_S4096x4x50x64_0_2_1_3 (ix4 b k s h) (ix4 b s k h) (fun c => match c with
    | ⟨0, _⟩ => rfl
    | ⟨1, _⟩ => rfl
    | ⟨2, _⟩ => rfl
    | ⟨3, _⟩ => rfl)

/-! ## The batched product of weights and items: its operands' indices, axis by axis -/

private theorem vdot_lhs_0 (i : S4096x4x1x64.Idx) (q : dot_S4096x4x1x50_S4096x4x50x64_S4096x4x1x64_3_2_2_3_01_01.contr.Idx) :
    (dot_S4096x4x1x50_S4096x4x50x64_S4096x4x1x64_3_2_2_3_01_01.lhsIdx i q 0).val = (i 0).val := by
  unfold DotDims.lhsIdx
  rw [dif_pos (show (0 : Fin S4096x4x1x50.rank) ∈ dot_S4096x4x1x50_S4096x4x50x64_S4096x4x1x64_3_2_2_3_01_01.lhsBatch by decide)]
  rfl
private theorem vdot_lhs_1 (i : S4096x4x1x64.Idx) (q : dot_S4096x4x1x50_S4096x4x50x64_S4096x4x1x64_3_2_2_3_01_01.contr.Idx) :
    (dot_S4096x4x1x50_S4096x4x50x64_S4096x4x1x64_3_2_2_3_01_01.lhsIdx i q 1).val = (i 1).val := by
  unfold DotDims.lhsIdx
  rw [dif_pos (show (1 : Fin S4096x4x1x50.rank) ∈ dot_S4096x4x1x50_S4096x4x50x64_S4096x4x1x64_3_2_2_3_01_01.lhsBatch by decide)]
  rfl
private theorem vdot_lhs_2 (i : S4096x4x1x64.Idx) (q : dot_S4096x4x1x50_S4096x4x50x64_S4096x4x1x64_3_2_2_3_01_01.contr.Idx) :
    (dot_S4096x4x1x50_S4096x4x50x64_S4096x4x1x64_3_2_2_3_01_01.lhsIdx i q 2).val = (i 2).val := by
  unfold DotDims.lhsIdx
  rw [dif_neg (show ¬(2 : Fin S4096x4x1x50.rank) ∈ dot_S4096x4x1x50_S4096x4x50x64_S4096x4x1x64_3_2_2_3_01_01.lhsBatch by decide), dif_pos (show (2 : Fin S4096x4x1x50.rank) ∈ dot_S4096x4x1x50_S4096x4x50x64_S4096x4x1x64_3_2_2_3_01_01.lhsNonContracting by decide)]
  rfl
private theorem vdot_lhs_3 (i : S4096x4x1x64.Idx) (q : dot_S4096x4x1x50_S4096x4x50x64_S4096x4x1x64_3_2_2_3_01_01.contr.Idx) :
    (dot_S4096x4x1x50_S4096x4x50x64_S4096x4x1x64_3_2_2_3_01_01.lhsIdx i q 3).val = (q ⟨0, by decide⟩).val :=
  dot_S4096x4x1x50_S4096x4x50x64_S4096x4x1x64_3_2_2_3_01_01.lhsIdx_val_of_single rfl i q
private theorem vdot_rhs_0 (i : S4096x4x1x64.Idx) (q : dot_S4096x4x1x50_S4096x4x50x64_S4096x4x1x64_3_2_2_3_01_01.contr.Idx) :
    (dot_S4096x4x1x50_S4096x4x50x64_S4096x4x1x64_3_2_2_3_01_01.rhsIdx i q 0).val = (i 0).val := by
  unfold DotDims.rhsIdx
  rw [dif_pos (show (0 : Fin S4096x4x50x64.rank) ∈ dot_S4096x4x1x50_S4096x4x50x64_S4096x4x1x64_3_2_2_3_01_01.rhsBatch by decide)]
  rfl
private theorem vdot_rhs_1 (i : S4096x4x1x64.Idx) (q : dot_S4096x4x1x50_S4096x4x50x64_S4096x4x1x64_3_2_2_3_01_01.contr.Idx) :
    (dot_S4096x4x1x50_S4096x4x50x64_S4096x4x1x64_3_2_2_3_01_01.rhsIdx i q 1).val = (i 1).val := by
  unfold DotDims.rhsIdx
  rw [dif_pos (show (1 : Fin S4096x4x50x64.rank) ∈ dot_S4096x4x1x50_S4096x4x50x64_S4096x4x1x64_3_2_2_3_01_01.rhsBatch by decide)]
  rfl
private theorem vdot_rhs_2 (i : S4096x4x1x64.Idx) (q : dot_S4096x4x1x50_S4096x4x50x64_S4096x4x1x64_3_2_2_3_01_01.contr.Idx) :
    (dot_S4096x4x1x50_S4096x4x50x64_S4096x4x1x64_3_2_2_3_01_01.rhsIdx i q 2).val = (q ⟨0, by decide⟩).val :=
  dot_S4096x4x1x50_S4096x4x50x64_S4096x4x1x64_3_2_2_3_01_01.rhsIdx_val_of_single rfl i q
private theorem vdot_rhs_3 (i : S4096x4x1x64.Idx) (q : dot_S4096x4x1x50_S4096x4x50x64_S4096x4x1x64_3_2_2_3_01_01.contr.Idx) :
    (dot_S4096x4x1x50_S4096x4x50x64_S4096x4x1x64_3_2_2_3_01_01.rhsIdx i q 3).val = (i 3).val := by
  unfold DotDims.rhsIdx
  rw [dif_neg (show ¬(3 : Fin S4096x4x50x64.rank) ∈ dot_S4096x4x1x50_S4096x4x50x64_S4096x4x1x64_3_2_2_3_01_01.rhsBatch by decide), dif_pos (show (3 : Fin S4096x4x50x64.rank) ∈ dot_S4096x4x1x50_S4096x4x50x64_S4096x4x1x64_3_2_2_3_01_01.rhsNonContracting by decide)]
  rfl

/-- The batched product with one contracted axis of 50, at (b, k, ·, h): the plain sum over that axis. -/
private theorem vdot_apply (y : FVec Ideal S4096x4x1x50 .f32) (xt : FVec Ideal S4096x4x50x64 .f32)
    (b : Fin 4096) (k : Fin 4) (h : Fin 64) :
    Host.dotGeneral dot_S4096x4x1x50_S4096x4x50x64_S4096x4x1x64_3_2_2_3_01_01 none y xt (ix4 b k 0 h) = ∑ s : Fin 50, y (ix4 b k 0 s) * xt (ix4 b k s h) := by
  simp only [Host.dotGeneral]
  rw [Ideal.dotGeneral_apply, ← Equiv.sum_comp (ValueIdx.contrEquiv1 dot_S4096x4x1x50_S4096x4x50x64_S4096x4x1x64_3_2_2_3_01_01 50 rfl rfl).symm]
  refine Finset.sum_congr rfl fun s _ => ?_
  have hk := ValueIdx.contrEquiv1_symm_val dot_S4096x4x1x50_S4096x4x50x64_S4096x4x1x64_3_2_2_3_01_01 50 rfl rfl s
  have el : dot_S4096x4x1x50_S4096x4x50x64_S4096x4x1x64_3_2_2_3_01_01.lhsIdx (ix4 b k 0 h) ((ValueIdx.contrEquiv1 dot_S4096x4x1x50_S4096x4x50x64_S4096x4x1x64_3_2_2_3_01_01 50 rfl rfl).symm s) = ix4 b k 0 s := funext fun a => Fin.ext (by
    match a with
    | ⟨0, _⟩ => exact vdot_lhs_0 _ _
    | ⟨1, _⟩ => exact vdot_lhs_1 _ _
    | ⟨2, _⟩ => exact vdot_lhs_2 _ _
    | ⟨3, _⟩ => exact (vdot_lhs_3 _ _).trans hk)
  have er : dot_S4096x4x1x50_S4096x4x50x64_S4096x4x1x64_3_2_2_3_01_01.rhsIdx (ix4 b k 0 h) ((ValueIdx.contrEquiv1 dot_S4096x4x1x50_S4096x4x50x64_S4096x4x1x64_3_2_2_3_01_01 50 rfl rfl).symm s) = ix4 b k s h := funext fun a => Fin.ext (by
    match a with
    | ⟨0, _⟩ => exact vdot_rhs_0 _ _
    | ⟨1, _⟩ => exact vdot_rhs_1 _ _
    | ⟨2, _⟩ => exact (vdot_rhs_2 _ _).trans hk
    | ⟨3, _⟩ => exact vdot_rhs_3 _ _)
  rw [el, er]

/-- v at (b, k, ·, h): the sum over the items of weight times item. -/
theorem vR_apply (w : (⟨S4096x4x50, .f32⟩ : BufTy).Contents (Elt Ideal)) (xt : (⟨S4096x4x50x64, .f32⟩ : BufTy).Contents (Elt Ideal))
    (b : Fin 4096) (k : Fin 4) (h : Fin 64) :
    vR w xt (ix4 b k 0 h) = ∑ s : Fin 50, w (ix3 b k s) * xt (ix4 b k s h) := by
  unfold vR
  rw [vdot_apply]
  refine Finset.sum_congr rfl fun s _ => ?_
  congr 1
  exact broadcastInDim_apply _ bcast_S4096x4x50_S4096x4x1x50_0_1_3 w (ix4 b k 0 s) (ix3 b k s) (fun a => match a with
    | ⟨0, _⟩ => by show b.val = if (4096 : Nat) = 1 then 0 else b.val; rw [if_neg (by decide)]
    | ⟨1, _⟩ => by show k.val = if (4 : Nat) = 1 then 0 else k.val; rw [if_neg (by decide)]
    | ⟨2, _⟩ => by show s.val = if (50 : Nat) = 1 then 0 else s.val; rw [if_neg (by decide)])

/-- The squared norm of v at (b, k, ·, ·): the sum over the hidden axis of v · v (the sum starts from the literal zero). -/
theorem normR_apply (v : (⟨S4096x4x1x64, .f32⟩ : BufTy).Contents (Elt Ideal)) (b : Fin 4096) (k : Fin 4) :
    normR v (ix4 b k 0 0) = ∑ h : Fin 64, v (ix4 b k 0 h) * v (ix4 b k 0 h) := by
  unfold normR
  refine (broadcastInDim_apply _ bcast_S4096x4x1_S4096x4x1x1_0_1_2 _ (ix4 b k 0 0) (ix3 b k 0) (fun a => match a with
    | ⟨0, _⟩ => by show b.val = if (4096 : Nat) = 1 then 0 else b.val; rw [if_neg (by decide)]
    | ⟨1, _⟩ => by show k.val = if (4 : Nat) = 1 then 0 else k.val; rw [if_neg (by decide)]
    | ⟨2, _⟩ => by show 0 = if (1 : Nat) = 1 then 0 else 0; rw [if_pos rfl])).trans ?_
  simp only [Host.reduceAdd, Ideal.hostReduceAdd_def]
  rw [Ideal.hostReduceAdd_single reducesTo_S4096x4x1x64_S4096x4x1_d3 (by decide)]
  rw [constant_apply, Ideal.ofBits_zero_f32, zero_add]
  refine Finset.sum_congr rfl fun h _ => ?_
  have hl : ∀ r : S4096x4x1x64.Reduces [3] S4096x4x1, r.lift (ix3 b k 0) h = ix4 b k 0 (h : Fin 64) := fun r => funext fun c => by
    match c with
    | ⟨0, _⟩ => exact Fin.ext rfl
    | ⟨1, _⟩ => exact Fin.ext rfl
    | ⟨2, _⟩ => exact Fin.ext rfl
    | ⟨3, _⟩ => exact Fin.ext rfl
  rw [mulf_apply, hl]
  rfl

/-- The squash factor at an index: (n / (1 + n)) / sqrt (n + ε) of the entry there. -/
theorem scaleR_apply (n : (⟨S4096x4x1x1, .f32⟩ : BufTy).Contents (Elt Ideal)) (j : S4096x4x1x1.Idx) :
    scaleR n j = Ideal.div (Ideal.div (n j) (one + n j)) (Ideal.sqrt (n j + eps)) := rfl

/-- One iteration's capsules at (b, k, ·, h). -/
theorem icR_apply (w : (⟨S4096x4x50, .f32⟩ : BufTy).Contents (Elt Ideal)) (xt : (⟨S4096x4x50x64, .f32⟩ : BufTy).Contents (Elt Ideal))
    (b : Fin 4096) (k : Fin 4) (h : Fin 64) :
    icR w xt (ix4 b k 0 h) = capIC (fun s h' => w (ix3 b k s) * xt (ix4 b k s h')) h := by
  unfold icR capIC
  rw [mulf_apply, vR_apply]
  refine congrArg (· * _) ?_
  refine (broadcastInDim_apply _ bcast_S4096x4x1x1_S4096x4x1x64_0_1_2_3 _ (ix4 b k 0 h) (ix4 b k 0 0) (fun a => match a with
    | ⟨0, _⟩ => by show b.val = if (4096 : Nat) = 1 then 0 else b.val; rw [if_neg (by decide)]
    | ⟨1, _⟩ => by show k.val = if (4 : Nat) = 1 then 0 else k.val; rw [if_neg (by decide)]
    | ⟨2, _⟩ => by show 0 = if (1 : Nat) = 1 then 0 else 0; rw [if_pos rfl]
    | ⟨3, _⟩ => by show 0 = if (1 : Nat) = 1 then 0 else h.val; rw [if_pos rfl])).trans ?_
  rw [scaleR_apply, normR_apply]
  unfold capS capN capV
  simp only [vR_apply]

/-! ## The batched product of items and capsules: its operands' indices, axis by axis -/

private theorem ddot_lhs_0 (i : S4096x4x50x1.Idx) (q : dot_S4096x4x50x64_S4096x4x64x1_S4096x4x50x1_3_2_2_3_01_01.contr.Idx) :
    (dot_S4096x4x50x64_S4096x4x64x1_S4096x4x50x1_3_2_2_3_01_01.lhsIdx i q 0).val = (i 0).val := by
  unfold DotDims.lhsIdx
  rw [dif_pos (show (0 : Fin S4096x4x50x64.rank) ∈ dot_S4096x4x50x64_S4096x4x64x1_S4096x4x50x1_3_2_2_3_01_01.lhsBatch by decide)]
  rfl
private theorem ddot_lhs_1 (i : S4096x4x50x1.Idx) (q : dot_S4096x4x50x64_S4096x4x64x1_S4096x4x50x1_3_2_2_3_01_01.contr.Idx) :
    (dot_S4096x4x50x64_S4096x4x64x1_S4096x4x50x1_3_2_2_3_01_01.lhsIdx i q 1).val = (i 1).val := by
  unfold DotDims.lhsIdx
  rw [dif_pos (show (1 : Fin S4096x4x50x64.rank) ∈ dot_S4096x4x50x64_S4096x4x64x1_S4096x4x50x1_3_2_2_3_01_01.lhsBatch by decide)]
  rfl
private theorem ddot_lhs_2 (i : S4096x4x50x1.Idx) (q : dot_S4096x4x50x64_S4096x4x64x1_S4096x4x50x1_3_2_2_3_01_01.contr.Idx) :
    (dot_S4096x4x50x64_S4096x4x64x1_S4096x4x50x1_3_2_2_3_01_01.lhsIdx i q 2).val = (i 2).val := by
  unfold DotDims.lhsIdx
  rw [dif_neg (show ¬(2 : Fin S4096x4x50x64.rank) ∈ dot_S4096x4x50x64_S4096x4x64x1_S4096x4x50x1_3_2_2_3_01_01.lhsBatch by decide), dif_pos (show (2 : Fin S4096x4x50x64.rank) ∈ dot_S4096x4x50x64_S4096x4x64x1_S4096x4x50x1_3_2_2_3_01_01.lhsNonContracting by decide)]
  rfl
private theorem ddot_lhs_3 (i : S4096x4x50x1.Idx) (q : dot_S4096x4x50x64_S4096x4x64x1_S4096x4x50x1_3_2_2_3_01_01.contr.Idx) :
    (dot_S4096x4x50x64_S4096x4x64x1_S4096x4x50x1_3_2_2_3_01_01.lhsIdx i q 3).val = (q ⟨0, by decide⟩).val :=
  dot_S4096x4x50x64_S4096x4x64x1_S4096x4x50x1_3_2_2_3_01_01.lhsIdx_val_of_single rfl i q
private theorem ddot_rhs_0 (i : S4096x4x50x1.Idx) (q : dot_S4096x4x50x64_S4096x4x64x1_S4096x4x50x1_3_2_2_3_01_01.contr.Idx) :
    (dot_S4096x4x50x64_S4096x4x64x1_S4096x4x50x1_3_2_2_3_01_01.rhsIdx i q 0).val = (i 0).val := by
  unfold DotDims.rhsIdx
  rw [dif_pos (show (0 : Fin S4096x4x64x1.rank) ∈ dot_S4096x4x50x64_S4096x4x64x1_S4096x4x50x1_3_2_2_3_01_01.rhsBatch by decide)]
  rfl
private theorem ddot_rhs_1 (i : S4096x4x50x1.Idx) (q : dot_S4096x4x50x64_S4096x4x64x1_S4096x4x50x1_3_2_2_3_01_01.contr.Idx) :
    (dot_S4096x4x50x64_S4096x4x64x1_S4096x4x50x1_3_2_2_3_01_01.rhsIdx i q 1).val = (i 1).val := by
  unfold DotDims.rhsIdx
  rw [dif_pos (show (1 : Fin S4096x4x64x1.rank) ∈ dot_S4096x4x50x64_S4096x4x64x1_S4096x4x50x1_3_2_2_3_01_01.rhsBatch by decide)]
  rfl
private theorem ddot_rhs_2 (i : S4096x4x50x1.Idx) (q : dot_S4096x4x50x64_S4096x4x64x1_S4096x4x50x1_3_2_2_3_01_01.contr.Idx) :
    (dot_S4096x4x50x64_S4096x4x64x1_S4096x4x50x1_3_2_2_3_01_01.rhsIdx i q 2).val = (q ⟨0, by decide⟩).val :=
  dot_S4096x4x50x64_S4096x4x64x1_S4096x4x50x1_3_2_2_3_01_01.rhsIdx_val_of_single rfl i q
private theorem ddot_rhs_3 (i : S4096x4x50x1.Idx) (q : dot_S4096x4x50x64_S4096x4x64x1_S4096x4x50x1_3_2_2_3_01_01.contr.Idx) :
    (dot_S4096x4x50x64_S4096x4x64x1_S4096x4x50x1_3_2_2_3_01_01.rhsIdx i q 3).val = (i 3).val := by
  unfold DotDims.rhsIdx
  rw [dif_neg (show ¬(3 : Fin S4096x4x64x1.rank) ∈ dot_S4096x4x50x64_S4096x4x64x1_S4096x4x50x1_3_2_2_3_01_01.rhsBatch by decide), dif_pos (show (3 : Fin S4096x4x64x1.rank) ∈ dot_S4096x4x50x64_S4096x4x64x1_S4096x4x50x1_3_2_2_3_01_01.rhsNonContracting by decide)]
  rfl

/-- The batched product with one contracted axis of 64, at (b, k, s, ·): the plain sum over that axis. -/
private theorem ddot_apply (xt : FVec Ideal S4096x4x50x64 .f32) (y : FVec Ideal S4096x4x64x1 .f32)
    (b : Fin 4096) (k : Fin 4) (s : Fin 50) :
    Host.dotGeneral (F := Ideal) dot_S4096x4x50x64_S4096x4x64x1_S4096x4x50x1_3_2_2_3_01_01 none xt y (ix4 b k s 0)
      = ∑ h : Fin 64, xt (ix4 b k s h) * y (ix4 b k h 0) := by
  simp only [Host.dotGeneral]
  rw [Ideal.dotGeneral_apply, ← Equiv.sum_comp (ValueIdx.contrEquiv1 dot_S4096x4x50x64_S4096x4x64x1_S4096x4x50x1_3_2_2_3_01_01 64 rfl rfl).symm]
  refine Finset.sum_congr rfl fun h _ => ?_
  have hk := ValueIdx.contrEquiv1_symm_val dot_S4096x4x50x64_S4096x4x64x1_S4096x4x50x1_3_2_2_3_01_01 64 rfl rfl h
  have el : dot_S4096x4x50x64_S4096x4x64x1_S4096x4x50x1_3_2_2_3_01_01.lhsIdx (ix4 b k s 0) ((ValueIdx.contrEquiv1 dot_S4096x4x50x64_S4096x4x64x1_S4096x4x50x1_3_2_2_3_01_01 64 rfl rfl).symm h) = ix4 b k s h := funext fun a => Fin.ext (by
    match a with
    | ⟨0, _⟩ => exact ddot_lhs_0 _ _
    | ⟨1, _⟩ => exact ddot_lhs_1 _ _
    | ⟨2, _⟩ => exact ddot_lhs_2 _ _
    | ⟨3, _⟩ => exact (ddot_lhs_3 _ _).trans hk)
  have er : dot_S4096x4x50x64_S4096x4x64x1_S4096x4x50x1_3_2_2_3_01_01.rhsIdx (ix4 b k s 0) ((ValueIdx.contrEquiv1 dot_S4096x4x50x64_S4096x4x64x1_S4096x4x50x1_3_2_2_3_01_01 64 rfl rfl).symm h) = ix4 b k h 0 := funext fun a => Fin.ext (by
    match a with
    | ⟨0, _⟩ => exact ddot_rhs_0 _ _
    | ⟨1, _⟩ => exact ddot_rhs_1 _ _
    | ⟨2, _⟩ => exact (ddot_rhs_2 _ _).trans hk
    | ⟨3, _⟩ => exact ddot_rhs_3 _ _)
  rw [el, er]

/-- One iteration's agreements at (b, k, s). -/
theorem deltaR_apply (w : (⟨S4096x4x50, .f32⟩ : BufTy).Contents (Elt Ideal)) (xt : (⟨S4096x4x50x64, .f32⟩ : BufTy).Contents (Elt Ideal))
    (b : Fin 4096) (k : Fin 4) (s : Fin 50) :
    deltaR w xt (ix3 b k s) = capD (fun s' h' => xt (ix4 b k s' h')) (fun h' => icR w xt (ix4 b k 0 h')) s := by
  unfold deltaR capD
  refine (shapeCast_apply _ shapeCasts_S4096x4x50x1_S4096x4x50 (ix3 b k s) (ix4 b k s 0) ?_).trans ?_
  · rw [Shape.rowMajor_val_four, Shape.rowMajor_val_three]
    show ((b.val * 4 + k.val) * 50 + s.val) * 1 + 0 = (b.val * 4 + k.val) * 50 + s.val
    omega
  · rw [ddot_apply]
    refine Finset.sum_congr rfl fun h _ => ?_
    refine congrArg (_ * ·) ?_
    exact transpose_apply [0, 1, 3, 2] (icR w xt) transposes_S4096x4x1x64_S4096x4x64x1_0_1_3_2 (ix4 b k h 0) (ix4 b k 0 h) (fun c => match c with
      | ⟨0, _⟩ => rfl
      | ⟨1, _⟩ => rfl
      | ⟨2, _⟩ => rfl
      | ⟨3, _⟩ => rfl)

/-- The result's re-lay drops the unit axis. -/
theorem lastR_apply (bm : (⟨S4096x4x50, .i32⟩ : BufTy).Contents (Elt Ideal)) (xt : (⟨S4096x4x50x64, .f32⟩ : BufTy).Contents (Elt Ideal))
    (cw : (⟨S4096x4x50, .f32⟩ : BufTy).Contents (Elt Ideal)) (b : Fin 4096) (k : Fin 4) (h : Fin 64) :
    lastR bm xt cw (ix3 b k h) = icR (msm bm cw) xt (ix4 b k 0 h) := by
  unfold lastR
  refine shapeCast_apply _ shapeCasts_S4096x4x1x64_S4096x4x64 (ix3 b k h) (ix4 b k 0 h) ?_
  rw [Shape.rowMajor_val_four, Shape.rowMajor_val_three]
  show ((b.val * 4 + k.val) * 1 + 0) * 64 + h.val = (b.val * 4 + k.val) * 64 + h.val
  omega

section Whole
variable (x1 : (⟨S4096x50x4x64, .f32⟩ : BufTy).Contents (Elt Ideal)) (x : (⟨3, ![4096, 50, 256]⟩ : Shape).Idx → EReal)
  (hx : ∀ (b : Fin 4096) (s : Fin 50) (k : Fin 4) (h : Fin 64), x (ix3 b s (lane k h)) = x1 (ix4 b s k h))
include hx

/-- The products of row b, capsule k, over the transposed items are the specification's products over the merged lanes. -/
private theorem prod_eq (w : (⟨S4096x4x50, .f32⟩ : BufTy).Contents (Elt Ideal)) (b : Fin 4096) (k : Fin 4) :
    (fun s h' => w (ix3 b k s) * itemT x1 (ix4 b k s h')) = prodAt x w b k := by
  funext s h'
  rw [itemT_apply, ← hx]
  rfl

/-- The capsules over the transposed items are the specification's capsules. -/
private theorem ic_eq (w : (⟨S4096x4x50, .f32⟩ : BufTy).Contents (Elt Ideal)) (b : Fin 4096) (k : Fin 4) (h : Fin 64) :
    icR w (itemT x1) (ix4 b k 0 h) = capIC (prodAt x w b k) h := by
  rw [icR_apply, prod_eq x1 x hx]

/-- The agreements over the transposed items are the specification's agreements. -/
private theorem delta_eq (w : (⟨S4096x4x50, .f32⟩ : BufTy).Contents (Elt Ideal)) :
    deltaR w (itemT x1) = Route.delta x w := by
  funext j
  obtain ⟨b, k, s, rfl⟩ : ∃ b k s, j = ix3 b k s := ⟨j 0, j 1, j 2, eq_ix3 j⟩
  rw [deltaR_apply]
  show _ = capD (fun s' h' => x (ix3 b s' (lane k h'))) (capIC (prodAt x w b k)) s
  congr 1
  · funext s' h'
    rw [itemT_apply, ← hx]
  · funext h'
    exact ic_eq x1 x hx w b k h'

/-- One iteration on the logits is the specification's step. -/
private theorem step_eq (bm : (⟨S4096x4x50, .i32⟩ : BufTy).Contents (Elt Ideal)) (cw : (⟨S4096x4x50, .f32⟩ : BufTy).Contents (Elt Ideal)) :
    stepR bm (itemT x1) cw = Route.step (msm bm) x cw := by
  funext j
  unfold stepR Route.step
  rw [addf_apply, delta_eq x1 x hx]

/-- The last iteration's capsules are the specification's capsules of the weights made from its logits. -/
private theorem last_eq (bm : (⟨S4096x4x50, .i32⟩ : BufTy).Contents (Elt Ideal)) (cw : (⟨S4096x4x50, .f32⟩ : BufTy).Contents (Elt Ideal)) :
    lastR bm (itemT x1) cw = Route.ic x (msm bm cw) := by
  funext j
  obtain ⟨b, k, h, rfl⟩ : ∃ b k h, j = ix3 b k h := ⟨j 0, j 1, j 2, eq_ix3 j⟩
  rw [lastR_apply]
  exact ic_eq x1 x hx (msm bm cw) b k h

end Whole

/-- THE REFERENCE IS THE SPECIFICATION: with the items read through the merged lanes, the reference's result is
    three routing iterations of the specification over the same masked softmax. -/
theorem resultR_eq (x0 : (⟨S4096x50, .i32⟩ : BufTy).Contents (Elt Ideal)) (x1 : (⟨S4096x50x4x64, .f32⟩ : BufTy).Contents (Elt Ideal))
    (x2 : (⟨S4096x4x50, .f32⟩ : BufTy).Contents (Elt Ideal))
    (x : (⟨3, ![4096, 50, 256]⟩ : Shape).Idx → EReal)
    (hx : ∀ (b : Fin 4096) (s : Fin 50) (k : Fin 4) (h : Fin 64), x (ix3 b s (lane k h)) = x1 (ix4 b s k h)) :
    resultR x0 x1 x2 = Route.routed (n := 4096) (msm (bmask x0)) x x2 := by
  unfold resultR Route.routed
  rw [step_eq x1 x hx, step_eq x1 x hx, last_eq x1 x hx]

end Cert.ReferenceIdeal.ReadStages

end
-- ==== Proof.Bridge.lean ====
/-
  The two programs' host functions meet.

  Both programs make the weights from the logits by the same operations (the masked softmax over the batch) and
  repeat the mask the same way: the two spellings, each over its own program's shapes, are the same functions.
  The kernel program merges the items' (capsule, hidden) axes into 256 lanes, which only renames an index:
  lane 64·k + h of item s is entry (s, k, h).
-/
import proofs.«121342_j42090679501341_1_alg».proof.Proof.HostK
import proofs.«121342_j42090679501341_1_alg».proof.Proof.RefStages
import proofs.«121342_j42090679501341_1_alg».proof.Proof.Spec
import proofs.«121342_j42090679501341_1_alg».proof.Proof.Gen.KernelIdeal
import proofs.«121342_j42090679501341_1_alg».proof.Proof.Gen.ReferenceIdeal
import Idealize.ShloMosaic.Lib.Pipeline.Value
import Idealize.ShloMosaic.Lib.ValueIdx

noncomputable section

namespace Cert.Bridge

open Idealize.ShloMosaic Idealize.ShloMosaic.TcCoe Idealize.ShloMosaic.ValueIdx Cert.Route

section Generic
variable {F : FTy → Type} [FloatOps F]

/-- The repeated mask is one function in both programs. -/
theorem bmask_same (x0 : (⟨Cert.KernelIdeal.S4096x50, .i32⟩ : BufTy).Contents (Elt F)) :
    Cert.ReferenceIdeal.Stages.bmask (F := F) x0 = Cert.KernelIdeal.Host.bmask x0 := rfl

/-- The masked softmax over the batch is one function in both programs. -/
theorem msm_same (bm : (⟨Cert.KernelIdeal.S4096x4x50, .i32⟩ : BufTy).Contents (Elt F))
    (cw : (⟨Cert.KernelIdeal.S4096x4x50, .f32⟩ : BufTy).Contents (Elt F)) :
    Cert.ReferenceIdeal.Stages.msm (F := F) bm cw = Cert.KernelIdeal.Host.msm bm cw := rfl

end Generic

/-- Merging (capsule, hidden): lane 64·k + h of item s is entry (s, k, h). -/
theorem relay_lane (x1 : (⟨Cert.KernelIdeal.S4096x50x4x64, .f32⟩ : BufTy).Contents (Elt Ideal))
    (b : Fin 4096) (s : Fin 50) (k : Fin 4) (h : Fin 64) :
    Cert.KernelIdeal.Host.relay x1 (ix3 b s (lane k h)) = x1 (ix4 b s k h) := by
  unfold Cert.KernelIdeal.Host.relay
  refine shapeCast_apply x1 _ (ix3 b s (lane k h)) (ix4 b s k h) ?_
  rw [Shape.rowMajor_val_four, Shape.rowMajor_val_three]
  show ((b.val * 50 + s.val) * 4 + k.val) * 64 + h.val = (b.val * 50 + s.val) * 256 + (64 * k.val + h.val)
  omega

end Cert.Bridge

end
-- ==== Proof.lean ====
/-
  Three routing iterations of a capsule layer: a Pallas kernel run three times, with host glue between the
  runs, against a jnp reference. Both compute, from a mask, items x and logits cw,
      routed = ic x (sm cw₂),   cw₂ = cw₁ + delta x (sm cw₁),   cw₁ = cw + delta x (sm cw),
  where sm is the softmax over the batch axis zeroed where the mask is zero, and for each batch row and capsule
      v_h = Σ_s w_s x_{s,h},   ic_h = ((n / (1 + n)) / sqrt (n + ε)) · v_h with n = Σ_h v_h²,   delta_s = Σ_h x_{s,h} ic_h
  (Proof/Spec.lean). The kernel forms the sums by lane reductions of broadcast products on 128-row blocks, the
  reference by batched matrix products over the transposed items; on the extended reals both are the same finite
  sums of the same products, so no law beyond reordering a finite sum is needed and the precondition is never opened.

  The kernel program's value: each region's blocks (Proof/Body.lean, Payload.lean) tile its arrays
  (Region0/1/2.lean), the host stretches between them are read in stages (HostK.lean), and the buffers are
  followed from boundary to boundary (KernelValue.lean) under the frame's launch with the result buffer named
  (KernelRun.lean). The reference's value: its run read iteration by iteration (RefOps.lean, RefStages.lean) and
  each stage read at an index (RefRead.lean). Bridge.lean identifies the two programs' host functions.
-/
import proofs.«121342_j42090679501341_1_alg».proof.Defs
import proofs.«121342_j42090679501341_1_alg».proof.Proof.Gen.Kernel
import proofs.«121342_j42090679501341_1_alg».proof.Proof.Gen.Kernel.Skeleton
import proofs.«121342_j42090679501341_1_alg».proof.Proof.Gen.Kernel.Launch
import proofs.«121342_j42090679501341_1_alg».proof.Proof.Gen.Kernel.Points
import proofs.«121342_j42090679501341_1_alg».proof.Proof.Gen.Kernel.Frame
import proofs.«121342_j42090679501341_1_alg».proof.Proof.Gen.KernelIdeal
import proofs.«121342_j42090679501341_1_alg».proof.Proof.Gen.KernelIdeal.Skeleton
import proofs.«121342_j42090679501341_1_alg».proof.Proof.Gen.KernelIdeal.Launch
import proofs.«121342_j42090679501341_1_alg».proof.Proof.Gen.KernelIdeal.Points
import proofs.«121342_j42090679501341_1_alg».proof.Proof.Gen.KernelIdeal.Frame
import proofs.«121342_j42090679501341_1_alg».proof.Proof.Gen.ReferenceIdeal
import proofs.«121342_j42090679501341_1_alg».proof.Proof.Gen.Pre_finite_inputs
import proofs.«121342_j42090679501341_1_alg».proof.Proof.KernelRun
import proofs.«121342_j42090679501341_1_alg».proof.Proof.KernelValue
import proofs.«121342_j42090679501341_1_alg».proof.Proof.RefStages
import proofs.«121342_j42090679501341_1_alg».proof.Proof.RefRead
import proofs.«121342_j42090679501341_1_alg».proof.Proof.Bridge
import Idealize.ShloMosaic.Adequacy
import Idealize.ShloMosaic.Init

noncomputable section

namespace Cert.Proof

open Idealize.ShloMosaic Idealize.SL.Sem

/-- The word-level kernel program runs and leaves its arguments: the generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and leaves its arguments: its staged run with the result dropped. -/
theorem frame_ri : Cert.frame_ReferenceIdeal := fun m ρ _ =>
  (θ_run Cert.ReferenceIdeal.defs _ _).mono (fun _ h c => (h c).2) (Cert.ReferenceIdeal.Stages.run (F := Ideal) m ρ)

/-- The ideal pass rewrote nothing. -/
theorem preserves : Cert.preserves_Kernel_KernelIdeal := trivial

/-- Both programs end with the specification's `routed` of the same mask, items and logits. -/
theorem algebraic : Cert.algebraic_KernelIdeal_ReferenceIdeal := by
  intro m ρ m' ρ' _ hagree
  refine ⟨fun c => Cert.Route.routed (n := 4096) (Cert.KernelIdeal.Host.msm (Cert.KernelIdeal.Walk.BM m c))
    (Cert.KernelIdeal.Walk.X m c) (Cert.KernelIdeal.Walk.CW m c), ?_, ?_⟩
  · exact (θ_run Cert.KernelIdeal.defs _ _).mono
      (fun r h c => ⟨(h c).1.trans (Cert.KernelIdeal.Walk.result m ρ c), (h c).2⟩)
      (Cert.KernelIdeal.GenV.run_value (F := Ideal) m ρ)
  · refine (θ_run Cert.ReferenceIdeal.defs _ _).mono (fun r h c => ⟨(h c).1.trans ?_, (h c).2⟩)
      (Cert.ReferenceIdeal.Stages.run (F := Ideal) m' ρ')
    rw [(hagree c).1, (hagree c).2.1, (hagree c).2.2]
    refine (Cert.ReferenceIdeal.ReadStages.resultR_eq _ _ _ (Cert.KernelIdeal.Walk.X m c)
      (fun b s k h => Cert.Bridge.relay_lane _ b s k h)).trans ?_
    rw [Cert.Bridge.bmask_same]
    exact congrArg (fun sm => Cert.Route.routed (n := 4096) sm (Cert.KernelIdeal.Walk.X m c) (Cert.KernelIdeal.Walk.CW m c))
      (funext fun cw => Cert.Bridge.msm_same _ cw)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
